-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x4096x1 : Shape := ⟨3, ![16, 4096, 1]⟩
abbrev S1x256x3 : Shape := ⟨3, ![1, 256, 3]⟩
abbrev S1x4096x3 : Shape := ⟨3, ![1, 4096, 3]⟩
abbrev S1x256x1 : Shape := ⟨3, ![1, 256, 1]⟩
abbrev S1x4096x1 : Shape := ⟨3, ![1, 4096, 1]⟩
abbrev S256x3 : Shape := ⟨2, ![256, 3]⟩
abbrev S4096x3 : Shape := ⟨2, ![4096, 3]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S4096x1 : Shape := ⟨2, ![4096, 1]⟩
abbrev S1x4096 : Shape := ⟨2, ![1, 4096]⟩
abbrev S16x4096 : Shape := ⟨2, ![16, 4096]⟩
abbrev S_ : Shape := ⟨0, ![]⟩

abbrev nBuf : Space → Nat
  | .hbm => 19
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x1, .f32⟩
  | .hbm, ⟨3, _⟩ => ⟨S16x4096x1, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x4096x3, .f32⟩
  | .local _ .vmem, ⟨3, _⟩ => ⟨S1x4096x3, .f32⟩
  | .local _ .vmem, ⟨4, _⟩ => ⟨S1x256x1, .f32⟩
  | .local _ .vmem, ⟨5, _⟩ => ⟨S1x256x1, .f32⟩
  | .local _ .vmem, ⟨6, _⟩ => ⟨S1x4096x1, .f32⟩
  | .local _ .vmem, ⟨7, _⟩ => ⟨S1x4096x1, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg1 : BitVec 32 := BitVec.ofNat 32 (i 1).val
  let c0_i32_15 : BitVec 32 := 0#32
  let v34 : BitVec 1 := Scalar.cmpi .ne arg1 c0_i32_15
  let v35 : BitVec 32 := Scalar.extui v34
  let c0_i32_16 : BitVec 32 := 0#32
  let v36 : BitVec 1 := Scalar.cmpi .ne v35 c0_i32_16
  v36

def k0_cond3 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_17 : BitVec 32 := 0#32
  let v39 : BitVec 1 := Scalar.cmpi .ne v38 c0_i32_17
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  bitsLt_bf16_f32 : FTy.bits .bf16 < FTy.bits .f32
  reduces_S256x3_S256 : S256x3.Reduces [1] S256
  shapeCasts_S256_S256x1 : S256.ShapeCasts S256x1
  reduces_S4096x3_S4096 : S4096x3.Reduces [1] S4096
  shapeCasts_S4096_S4096x1 : S4096.ShapeCasts S4096x1
  transposes_S4096x1_p1_0_S1x4096 : S4096x1.Transposes [1, 0] S1x4096
  broadcasts_S256x1_S256x4096 : S256x1.Broadcasts S256x4096
  broadcasts_S1x4096_S256x4096 : S1x4096.Broadcasts S256x4096
  reduces_S256x4096_S256 : S256x4096.Reduces [1] S256
  reduces_S256x4096_S4096 : S256x4096.Reduces [0] S4096
  shapeCasts_S4096_S1x4096 : S4096.ShapeCasts S1x4096
  transposes_S1x4096_p1_0_S4096x1 : S1x4096.Transposes [1, 0] S4096x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  shapeCasts_S16x4096x1_S16x4096 : S16x4096x1.ShapeCasts S16x4096
  reducesTo_S16x4096_S_d0_1 : S16x4096.ReducesTo [0, 1] S_
  h_S_ : 0 < S_.numel
  dot_S256x3_S4096x3_S256x4096_1_1_0_0_n_n_wf : DotDims.WF S256x3 S4096x3 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S16x4096x3.size a
  hwx0_0 : ∀ i : grid0.Coords, EltTy.bits .f32 = 32 ∨ (Rect.block (s := S16x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S16x4096x1.size a
  hwx0_2 : ∀ i : grid0.Coords, EltTy.bits .f32 = 32 ∨ (Rect.block (s := S16x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S16x4096x1.size a
  hwx0_3 : ∀ i : grid0.Coords, EltTy.bits .f32 = 32 ∨ (Rect.block (s := S16x4096x1) S1x4096x1.size (cc0_transform_3 i) (hinb0_3 i)).WholeWords (EltTy.packing .f32)

variable [Facts₀]

def dot_S256x3_S4096x3_S256x4096_1_1_0_0_n_n : DotDims S256x3 S4096x3 S256x4096 where
  lhsContracting := [1]
  rhsContracting := [1]
  lhsNonContracting := [0]
  rhsNonContracting := [0]
  lhsBatch := []
  rhsBatch := []
  wf := dot_S256x3_S4096x3_S256x4096_1_1_0_0_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S16x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.K.Cases.lean ====
/-
  The three kinds of grid point of the distance kernel, and where its windows are live.

  The grid is 16 batch entries by 16 tiles of 256 points of the first cloud, walked entry by entry. Within an entry the
  running column minimum is started at the first tile, lowered at every later tile, and at the last tile lowered and
  then replaced by its square root. So a point is of the first kind when its tile number is 0, of the last kind when it
  is 15, and of the middle kind otherwise; the three conditions of the body are decided over the 256 points as
  congruences of the point's number modulo 16.
-/
import proofs.«101841_j19164144075465_1_alg».proof.Proof.Gen.Kernel.Frame
import proofs.«101841_j19164144075465_1_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first condition: the tile number is zero. -/
abbrev condA (i : grid0.Coords) : Prop := k0_cond1 i = 1#1
/-- The body's second condition: the tile number is not zero. -/
abbrev condB (i : grid0.Coords) : Prop := k0_cond2 i = 1#1
/-- The body's third condition: the tile number is fifteen. -/
abbrev condC (i : grid0.Coords) : Prop := k0_cond3 i = 1#1

theorem hcondA : ∀ t : Fin cfg0.N, condA (grid0.coords t) ↔ t.val % 16 = 0 :=
  (by decide +kernel : ∀ t : Fin grid0.N, condA (grid0.coords t) ↔ t.val % 16 = 0)
theorem hcondB : ∀ t : Fin cfg0.N, condB (grid0.coords t) ↔ ¬t.val % 16 = 0 :=
  (by decide +kernel : ∀ t : Fin grid0.N, condB (grid0.coords t) ↔ ¬t.val % 16 = 0)
theorem hcondC : ∀ t : Fin cfg0.N, condC (grid0.coords t) ↔ t.val % 16 = 15 :=
  (by decide +kernel : ∀ t : Fin grid0.N, condC (grid0.coords t) ↔ t.val % 16 = 15)

/-- No window is idle at any point: at every point one of the first two conditions holds, so the running minimum is
    stored at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- The staging memref each window is on at point t, and that it is a whole buffer. -/
abbrev ms0 (t : Fin cfg0.N) : Memref sig .tc .vmem S1x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x1 .f32 := win0_3.stage (cfg0.slots t 3)
abbrev hs3 (t : Fin cfg0.N) : (ms3 t).IsWhole := hstage0_3 ((cfg0.slots t 3).cast nbuf0_3)

/-- One staging buffer of each output window, through which its contents are stated. -/
abbrev VO2 : View sig .tc .vmem S1x256x1 .f32 := (Memref.whole cc0_stg2_0 : Memref sig .tc .vmem S1x256x1 .f32).view
abbrev VO3 : View sig .tc .vmem S1x4096x1 .f32 := (Memref.whole cc0_stg3_0 : Memref sig .tc .vmem S1x4096x1 .f32).view

end Cert.Kernel.Hand

end
-- ==== Proof.K.RunA.lean ====
/-
  The body of the distance kernel run once at a point of kind A: from the two input blocks it leaves, in the first
  output's buffer, the square roots of the row minima, and in the second output's buffer the running column minimum as
  this kind of point updates it. The stores' values are found by running the body; what they are is read back elsewhere.
-/
import proofs.«101841_j19164144075465_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The lists of stores (newest first) the body makes into the two output buffers at a point of kind A, with the
    proof that, holding the two input buffers at blocks x0 and x1 and the output buffers at anything, the body runs to its end
    with the inputs as they were and each output buffer rewritten by its list. -/
noncomputable def kernelRunA (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) :
    Σ' (L2 : List (View.Piece (Elt F) S1x256x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.K.RunB.lean ====
/-
  The body of the distance kernel run once at a point of kind B: from the two input blocks it leaves, in the first
  output's buffer, the square roots of the row minima, and in the second output's buffer the running column minimum as
  this kind of point updates it. The stores' values are found by running the body; what they are is read back elsewhere.
-/
import proofs.«101841_j19164144075465_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The lists of stores (newest first) the body makes into the two output buffers at a point of kind B, with the
    proof that, holding the two input buffers at blocks x0 and x1 and the output buffers (the second at the running minimum xo the point before left), the body runs to its end
    with the inputs as they were and each output buffer rewritten by its list. -/
noncomputable def kernelRunB (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) :
    Σ' (L2 : List (View.Piece (Elt F) S1x256x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.K.RunC.lean ====
/-
  The body of the distance kernel run once at a point of kind C: from the two input blocks it leaves, in the first
  output's buffer, the square roots of the row minima, and in the second output's buffer the running column minimum as
  this kind of point updates it. The stores' values are found by running the body; what they are is read back elsewhere.
-/
import proofs.«101841_j19164144075465_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The lists of stores (newest first) the body makes into the two output buffers at a point of kind C, with the
    proof that, holding the two input buffers at blocks x0 and x1 and the output buffers (the second at the running minimum xo the point before left), the body runs to its end
    with the inputs as they were and each output buffer rewritten by its list. -/
noncomputable def kernelRunC (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) :
    Σ' (L2 : List (View.Piece (Elt F) S1x256x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.K.Frame.lean ====
/-
  The distance kernel runs to its end at every grid point, and what it leaves behind.

  Point by point over the 256 grid points: the two input windows hold their blocks (the first cloud's tile, the second
  cloud's whole entry); the first output's buffer receives the tile's row results; the second output's buffer carries the
  running column minimum from one tile of an entry to the next and is written back after the entry's last tile. What the
  outputs hold after a point is defined by recursion on the point: a point of the first kind starts afresh, a point of
  the middle or last kind works on what the point before left. From this the pipeline's run follows, and with it the
  program's frame: it terminates, faults nowhere, and leaves its two argument arrays as they were.
-/
import proofs.«101841_j19164144075465_1_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves in the two output buffers -/

theorem cover2_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) (y : S1x256x1.Idx) :
    ∃ pc ∈ (kernelRunA c i arg2 harg2 arg3 harg3 arg4 harg4 arg5 harg5 hc0 hc1 hc2 x0 x1).1, y ∈ pc.1.set :=
  View.cover_of_tiledL (kernelRunA c i arg2 harg2 arg3 harg3 arg4 harg4 arg5 harg5 hc0 hc1 hc2 x0 x1).1 S1x256x1.size (by sl_kernel_rfl) y
theorem cover3_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) (y : S1x4096x1.Idx) :
    ∃ pc ∈ (kernelRunA c i arg2 harg2 arg3 harg3 arg4 harg4 arg5 harg5 hc0 hc1 hc2 x0 x1).2.1, y ∈ pc.1.set :=
  View.cover_of_tiledL (kernelRunA c i arg2 harg2 arg3 harg3 arg4 harg4 arg5 harg5 hc0 hc1 hc2 x0 x1).2.1 S1x4096x1.size (by sl_kernel_rfl) y
/-- A point of the first kind: the row results, and the tile's own column minimum. -/
def out2_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) : Vec F S1x256x1 .f32 :=
  VO2.read (Elt F) (VO2.writes (Elt F) VO2.junk (kernelRunA c i arg2 harg2 arg3 harg3 arg4 harg4 arg5 harg5 hc0 hc1 hc2 x0 x1).1)
def out3_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) : Vec F S1x4096x1 .f32 :=
  VO3.read (Elt F) (VO3.writes (Elt F) VO3.junk (kernelRunA c i arg2 harg2 arg3 harg3 arg4 harg4 arg5 harg5 hc0 hc1 hc2 x0 x1).2.1)

theorem cover2_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) (y : S1x256x1.Idx) :
    ∃ pc ∈ (kernelRunB c i arg2 harg2 arg3 harg3 arg4 harg4 arg5 harg5 hc0 hc1 hc2 x0 x1 xo).1, y ∈ pc.1.set :=
  View.cover_of_tiledL (kernelRunB c i arg2 harg2 arg3 harg3 arg4 harg4 arg5 harg5 hc0 hc1 hc2 x0 x1 xo).1 S1x256x1.size (by sl_kernel_rfl) y
theorem cover3_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) (y : S1x4096x1.Idx) :
    ∃ pc ∈ (kernelRunB c i arg2 harg2 arg3 harg3 arg4 harg4 arg5 harg5 hc0 hc1 hc2 x0 x1 xo).2.1, y ∈ pc.1.set :=
  View.cover_of_tiledL (kernelRunB c i arg2 harg2 arg3 harg3 arg4 harg4 arg5 harg5 hc0 hc1 hc2 x0 x1 xo).2.1 S1x4096x1.size (by sl_kernel_rfl) y
/-- A point of the middle kind: the row results, and the running column minimum lowered by the tile's. -/
def out2_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) : Vec F S1x256x1 .f32 :=
  VO2.read (Elt F) (VO2.writes (Elt F) VO2.junk (kernelRunB c i arg2 harg2 arg3 harg3 arg4 harg4 arg5 harg5 hc0 hc1 hc2 x0 x1 xo).1)
def out3_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) : Vec F S1x4096x1 .f32 :=
  VO3.read (Elt F) (VO3.writes (Elt F) VO3.junk (kernelRunB c i arg2 harg2 arg3 harg3 arg4 harg4 arg5 harg5 hc0 hc1 hc2 x0 x1 xo).2.1)

theorem cover2_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) (y : S1x256x1.Idx) :
    ∃ pc ∈ (kernelRunC c i arg2 harg2 arg3 harg3 arg4 harg4 arg5 harg5 hc0 hc1 hc2 x0 x1 xo).1, y ∈ pc.1.set :=
  View.cover_of_tiledL (kernelRunC c i arg2 harg2 arg3 harg3 arg4 harg4 arg5 harg5 hc0 hc1 hc2 x0 x1 xo).1 S1x256x1.size (by sl_kernel_rfl) y
theorem cover3_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) (y : S1x4096x1.Idx) :
    ∃ pc ∈ (kernelRunC c i arg2 harg2 arg3 harg3 arg4 harg4 arg5 harg5 hc0 hc1 hc2 x0 x1 xo).2.1, y ∈ pc.1.set :=
  View.cover_of_tiledL (kernelRunC c i arg2 harg2 arg3 harg3 arg4 harg4 arg5 harg5 hc0 hc1 hc2 x0 x1 xo).2.1 S1x4096x1.size (by sl_kernel_rfl) y
/-- A point of the last kind: the row results, and the square root of the lowered running column minimum. -/
def out2_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) : Vec F S1x256x1 .f32 :=
  VO2.read (Elt F) (VO2.writes (Elt F) VO2.junk (kernelRunC c i arg2 harg2 arg3 harg3 arg4 harg4 arg5 harg5 hc0 hc1 hc2 x0 x1 xo).1)
def out3_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) : Vec F S1x4096x1 .f32 :=
  VO3.read (Elt F) (VO3.writes (Elt F) VO3.junk (kernelRunC c i arg2 harg2 arg3 harg3 arg4 harg4 arg5 harg5 hc0 hc1 hc2 x0 x1 xo).2.1)

/-! ## Point by point -/

/-- What a point of the first kind leaves in the two output buffers, at its own memrefs and input blocks. -/
def caseA (c : Dev nD) (t : Fin cfg0.N) (h0 : t.val % 16 = 0) : Vec F S1x256x1 .f32 × Vec F S1x4096x1 .f32 :=
  (out2_A c (grid0.coords t) (ms0 t) (hs0 t) (ms1 t) (hs1 t) (ms2 t) (hs2 t) (ms3 t) (hs3 t) ((hcondA t).mpr h0) (fun h => (hcondB t).mp h h0) (fun h => by have := (hcondC t).mp h; omega) (iblk m c 0 t) (iblk m c 1 t),
   out3_A c (grid0.coords t) (ms0 t) (hs0 t) (ms1 t) (hs1 t) (ms2 t) (hs2 t) (ms3 t) (hs3 t) ((hcondA t).mpr h0) (fun h => (hcondB t).mp h h0) (fun h => by have := (hcondC t).mp h; omega) (iblk m c 0 t) (iblk m c 1 t))
/-- A point of the middle kind, over the running minimum xo the point before left. -/
def caseB (c : Dev nD) (t : Fin cfg0.N) (h0 : ¬t.val % 16 = 0) (h1 : ¬t.val % 16 = 15) (xo : Vec F S1x4096x1 .f32) : Vec F S1x256x1 .f32 × Vec F S1x4096x1 .f32 :=
  (out2_B c (grid0.coords t) (ms0 t) (hs0 t) (ms1 t) (hs1 t) (ms2 t) (hs2 t) (ms3 t) (hs3 t) (fun h => h0 ((hcondA t).mp h)) ((hcondB t).mpr h0) (fun h => h1 ((hcondC t).mp h)) (iblk m c 0 t) (iblk m c 1 t) xo,
   out3_B c (grid0.coords t) (ms0 t) (hs0 t) (ms1 t) (hs1 t) (ms2 t) (hs2 t) (ms3 t) (hs3 t) (fun h => h0 ((hcondA t).mp h)) ((hcondB t).mpr h0) (fun h => h1 ((hcondC t).mp h)) (iblk m c 0 t) (iblk m c 1 t) xo)
/-- A point of the last kind, over the running minimum xo the point before left. -/
def caseC (c : Dev nD) (t : Fin cfg0.N) (h0 : ¬t.val % 16 = 0) (h1 : t.val % 16 = 15) (xo : Vec F S1x4096x1 .f32) : Vec F S1x256x1 .f32 × Vec F S1x4096x1 .f32 :=
  (out2_C c (grid0.coords t) (ms0 t) (hs0 t) (ms1 t) (hs1 t) (ms2 t) (hs2 t) (ms3 t) (hs3 t) (fun h => h0 ((hcondA t).mp h)) ((hcondB t).mpr h0) ((hcondC t).mpr h1) (iblk m c 0 t) (iblk m c 1 t) xo,
   out3_C c (grid0.coords t) (ms0 t) (hs0 t) (ms1 t) (hs1 t) (ms2 t) (hs2 t) (ms3 t) (hs3 t) (fun h => h0 ((hcondA t).mp h)) ((hcondB t).mpr h0) ((hcondC t).mpr h1) (iblk m c 0 t) (iblk m c 1 t) xo)

/-- What the two output buffers hold after the body at position n: the kind of point its number selects, a point of the
    middle or last kind working on the second buffer as position n - 1 left it (the buffer is not written back between). -/
def outsAt0 (c : Dev nD) : (n : ℕ) → n < cfg0.N → Vec F S1x256x1 .f32 × Vec F S1x4096x1 .f32
  | 0, hn => caseA m c ⟨0, hn⟩ (Nat.zero_mod _)
  | n + 1, hn =>
    if h0 : (n + 1) % 16 = 0 then caseA m c ⟨n + 1, hn⟩ h0
    else if h1 : (n + 1) % 16 = 15 then caseC m c ⟨n + 1, hn⟩ h0 h1 (outsAt0 c n (Nat.lt_of_succ_lt hn)).2
    else caseB m c ⟨n + 1, hn⟩ h0 h1 (outsAt0 c n (Nat.lt_of_succ_lt hn)).2

theorem outsAt0_A (c : Dev nD) (t : Fin cfg0.N) (h0 : t.val % 16 = 0) : outsAt0 m c t.val t.isLt = caseA m c t h0 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 m c t.val t.isLt = caseB m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = caseC m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The arrays as the region finds them; after the body at a point each input's buffer at its block and the outputs' at
    what the recursion above says; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt0 m c t.val t.isLt).1 := by dsimp only [dats]
theorem after3 (c : Dev nD) (t : Fin cfg0.N) : (dats m 0 c).after 3 t = (outsAt0 m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The second output's window is live at every grid coordinate. -/
theorem live3_all : ∀ i : grid0.Coords, cfg0.idle 3 i = false := by decide +kernel

/-- At a point that is not an entry's first tile the second output's buffer holds what the point before left: the buffer
    was not written back between. -/
theorem before3_kept (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    live3_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's number says which kind it is; at a point of
    the middle or last kind the second output's buffer holds what the point before left; so the kind's run applies, and
    what it leaves is what the recursion names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0,
    show (dats m 0 c).leavesExact 1 t = owns (c : Thread nD τ) (ms1 t) fullShare ((dats m 0 c).after 1 t) from by
      unfold Dat.leavesExact; rw [live1 t], after1,
    show (dats m 0 c).leavesExact 2 t = owns (c : Thread nD τ) (ms2 t) fullShare ((dats m 0 c).after 2 t) from by
      unfold Dat.leavesExact; rw [live2 t], after2,
    show (dats m 0 c).leavesExact 3 t = owns (c : Thread nD τ) (ms3 t) fullShare ((dats m 0 c).after 3 t) from by
      unfold Dat.leavesExact; rw [live3 t], after3]
  have hN : t.val < 256 := lt_of_lt_of_eq t.isLt (show cfg0.N = 256 from N_0)
  by_cases h0 : t.val % 16 = 0
  · rw [outsAt0_A m c t h0]
    unfold caseA out2_A out3_A; (try dsimp only)
    iintro ⟨HΦ, Ho, ⟨%d0, H0⟩, ⟨%d1, H1⟩, ⟨%d2, H2⟩, ⟨%d3, H3⟩⟩
    iapply ((kernelRunA c (grid0.coords t) _ _ _ _ _ _ _ _ ((hcondA t).mpr h0) (fun h => (hcondB t).mp h h0) (fun h => by have := (hcondC t).mp h; omega) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2_A c _ _ _ _ _ _ _ _ _ _ _ _ _ _)
    unfold owns; iexists _; isplitr
    swap; · iexact H3
    ipureintro; exact View.read_writes_of_cover _ _ _ _ _ (cover3_A c _ _ _ _ _ _ _ _ _ _ _ _ _ _)
  · by_cases h1 : t.val % 16 = 15
    · rw [outsAt0_C m c t h0 h1]
      simp only [before3_kept m c t h0]
      unfold caseC out2_C out3_C; (try dsimp only)
      iintro ⟨HΦ, Ho, ⟨%d0, H0⟩, ⟨%d1, H1⟩, ⟨%d2, H2⟩, ⟨%d3, H3⟩⟩
      iapply ((kernelRunC c (grid0.coords t) _ _ _ _ _ _ _ _ (fun h => h0 ((hcondA t).mp h)) ((hcondB t).mpr h0) ((hcondC t).mpr h1) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _)
    · rw [outsAt0_B m c t h0 h1]
      simp only [before3_kept m c t h0]
      unfold caseB out2_B out3_B; (try dsimp only)
      iintro ⟨HΦ, Ho, ⟨%d0, H0⟩, ⟨%d1, H1⟩, ⟨%d2, H2⟩, ⟨%d3, H3⟩⟩
      iapply ((kernelRunB c (grid0.coords t) _ _ _ _ _ _ _ _ (fun h => h0 ((hcondA t).mp h)) ((hcondB t).mpr h0) (fun h => h1 ((hcondC t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _)
      unfold owns; iexists _; isplitr
      swap; · iexact H3
      ipureintro; exact View.read_writes_of_cover _ _ _ _ _ (cover3_B c _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in its final state every array of the pipeline is at what
    the proof data says and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates, faults nowhere, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Cases.lean ====
/-
  The three kinds of grid point of the distance kernel, and where its windows are live.

  The grid is 16 batch entries by 16 tiles of 256 points of the first cloud, walked entry by entry. Within an entry the
  running column minimum is started at the first tile, lowered at every later tile, and at the last tile lowered and
  then replaced by its square root. So a point is of the first kind when its tile number is 0, of the last kind when it
  is 15, and of the middle kind otherwise; the three conditions of the body are decided over the 256 points as
  congruences of the point's number modulo 16.
-/
import proofs.«101841_j19164144075465_1_alg».proof.Proof.Gen.KernelIdeal.Frame
import proofs.«101841_j19164144075465_1_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first condition: the tile number is zero. -/
abbrev condA (i : grid0.Coords) : Prop := k0_cond1 i = 1#1
/-- The body's second condition: the tile number is not zero. -/
abbrev condB (i : grid0.Coords) : Prop := k0_cond2 i = 1#1
/-- The body's third condition: the tile number is fifteen. -/
abbrev condC (i : grid0.Coords) : Prop := k0_cond3 i = 1#1

theorem hcondA : ∀ t : Fin cfg0.N, condA (grid0.coords t) ↔ t.val % 16 = 0 :=
  (by decide +kernel : ∀ t : Fin grid0.N, condA (grid0.coords t) ↔ t.val % 16 = 0)
theorem hcondB : ∀ t : Fin cfg0.N, condB (grid0.coords t) ↔ ¬t.val % 16 = 0 :=
  (by decide +kernel : ∀ t : Fin grid0.N, condB (grid0.coords t) ↔ ¬t.val % 16 = 0)
theorem hcondC : ∀ t : Fin cfg0.N, condC (grid0.coords t) ↔ t.val % 16 = 15 :=
  (by decide +kernel : ∀ t : Fin grid0.N, condC (grid0.coords t) ↔ t.val % 16 = 15)

/-- No window is idle at any point: at every point one of the first two conditions holds, so the running minimum is
    stored at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- The staging memref each window is on at point t, and that it is a whole buffer. -/
abbrev ms0 (t : Fin cfg0.N) : Memref sig .tc .vmem S1x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4096x1 .f32 := win0_3.stage (cfg0.slots t 3)
abbrev hs3 (t : Fin cfg0.N) : (ms3 t).IsWhole := hstage0_3 ((cfg0.slots t 3).cast nbuf0_3)

/-- One staging buffer of each output window, through which its contents are stated. -/
abbrev VO2 : View sig .tc .vmem S1x256x1 .f32 := (Memref.whole cc0_stg2_0 : Memref sig .tc .vmem S1x256x1 .f32).view
abbrev VO3 : View sig .tc .vmem S1x4096x1 .f32 := (Memref.whole cc0_stg3_0 : Memref sig .tc .vmem S1x4096x1 .f32).view

end Cert.KernelIdeal.Hand

end
-- ==== Proof.KI.RunA.lean ====
/-
  The body of the distance kernel run once at a point of kind A: from the two input blocks it leaves, in the first
  output's buffer, the square roots of the row minima, and in the second output's buffer the running column minimum as
  this kind of point updates it. The stores' values are found by running the body; what they are is read back elsewhere.
-/
import proofs.«101841_j19164144075465_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The lists of stores (newest first) the body makes into the two output buffers at a point of kind A, with the
    proof that, holding the two input buffers at blocks x0 and x1 and the output buffers at anything, the body runs to its end
    with the inputs as they were and each output buffer rewritten by its list. -/
noncomputable def kernelRunA (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) :
    Σ' (L2 : List (View.Piece (Elt F) S1x256x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.RunB.lean ====
/-
  The body of the distance kernel run once at a point of kind B: from the two input blocks it leaves, in the first
  output's buffer, the square roots of the row minima, and in the second output's buffer the running column minimum as
  this kind of point updates it. The stores' values are found by running the body; what they are is read back elsewhere.
-/
import proofs.«101841_j19164144075465_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The lists of stores (newest first) the body makes into the two output buffers at a point of kind B, with the
    proof that, holding the two input buffers at blocks x0 and x1 and the output buffers (the second at the running minimum xo the point before left), the body runs to its end
    with the inputs as they were and each output buffer rewritten by its list. -/
noncomputable def kernelRunB (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) :
    Σ' (L2 : List (View.Piece (Elt F) S1x256x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.RunC.lean ====
/-
  The body of the distance kernel run once at a point of kind C: from the two input blocks it leaves, in the first
  output's buffer, the square roots of the row minima, and in the second output's buffer the running column minimum as
  this kind of point updates it. The stores' values are found by running the body; what they are is read back elsewhere.
-/
import proofs.«101841_j19164144075465_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The lists of stores (newest first) the body makes into the two output buffers at a point of kind C, with the
    proof that, holding the two input buffers at blocks x0 and x1 and the output buffers (the second at the running minimum xo the point before left), the body runs to its end
    with the inputs as they were and each output buffer rewritten by its list. -/
noncomputable def kernelRunC (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) :
    Σ' (L2 : List (View.Piece (Elt F) S1x256x1 .f32)), { L3 : List (View.Piece (Elt F) S1x4096x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KI.Frame.lean ====
/-
  The distance kernel runs to its end at every grid point, and what it leaves behind.

  Point by point over the 256 grid points: the two input windows hold their blocks (the first cloud's tile, the second
  cloud's whole entry); the first output's buffer receives the tile's row results; the second output's buffer carries the
  running column minimum from one tile of an entry to the next and is written back after the entry's last tile. What the
  outputs hold after a point is defined by recursion on the point: a point of the first kind starts afresh, a point of
  the middle or last kind works on what the point before left. From this the pipeline's run follows, and with it the
  program's frame: it terminates, faults nowhere, and leaves its two argument arrays as they were.
-/
import proofs.«101841_j19164144075465_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves in the two output buffers -/

theorem cover2_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) (y : S1x256x1.Idx) :
    ∃ pc ∈ (kernelRunA c i arg2 harg2 arg3 harg3 arg4 harg4 arg5 harg5 hc0 hc1 hc2 x0 x1).1, y ∈ pc.1.set :=
  View.cover_of_tiledL (kernelRunA c i arg2 harg2 arg3 harg3 arg4 harg4 arg5 harg5 hc0 hc1 hc2 x0 x1).1 S1x256x1.size (by sl_kernel_rfl) y
theorem cover3_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) (y : S1x4096x1.Idx) :
    ∃ pc ∈ (kernelRunA c i arg2 harg2 arg3 harg3 arg4 harg4 arg5 harg5 hc0 hc1 hc2 x0 x1).2.1, y ∈ pc.1.set :=
  View.cover_of_tiledL (kernelRunA c i arg2 harg2 arg3 harg3 arg4 harg4 arg5 harg5 hc0 hc1 hc2 x0 x1).2.1 S1x4096x1.size (by sl_kernel_rfl) y
/-- A point of the first kind: the row results, and the tile's own column minimum. -/
def out2_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) : Vec F S1x256x1 .f32 :=
  VO2.read (Elt F) (VO2.writes (Elt F) VO2.junk (kernelRunA c i arg2 harg2 arg3 harg3 arg4 harg4 arg5 harg5 hc0 hc1 hc2 x0 x1).1)
def out3_A (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) : Vec F S1x4096x1 .f32 :=
  VO3.read (Elt F) (VO3.writes (Elt F) VO3.junk (kernelRunA c i arg2 harg2 arg3 harg3 arg4 harg4 arg5 harg5 hc0 hc1 hc2 x0 x1).2.1)

theorem cover2_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) (y : S1x256x1.Idx) :
    ∃ pc ∈ (kernelRunB c i arg2 harg2 arg3 harg3 arg4 harg4 arg5 harg5 hc0 hc1 hc2 x0 x1 xo).1, y ∈ pc.1.set :=
  View.cover_of_tiledL (kernelRunB c i arg2 harg2 arg3 harg3 arg4 harg4 arg5 harg5 hc0 hc1 hc2 x0 x1 xo).1 S1x256x1.size (by sl_kernel_rfl) y
theorem cover3_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) (y : S1x4096x1.Idx) :
    ∃ pc ∈ (kernelRunB c i arg2 harg2 arg3 harg3 arg4 harg4 arg5 harg5 hc0 hc1 hc2 x0 x1 xo).2.1, y ∈ pc.1.set :=
  View.cover_of_tiledL (kernelRunB c i arg2 harg2 arg3 harg3 arg4 harg4 arg5 harg5 hc0 hc1 hc2 x0 x1 xo).2.1 S1x4096x1.size (by sl_kernel_rfl) y
/-- A point of the middle kind: the row results, and the running column minimum lowered by the tile's. -/
def out2_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) : Vec F S1x256x1 .f32 :=
  VO2.read (Elt F) (VO2.writes (Elt F) VO2.junk (kernelRunB c i arg2 harg2 arg3 harg3 arg4 harg4 arg5 harg5 hc0 hc1 hc2 x0 x1 xo).1)
def out3_B (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) : Vec F S1x4096x1 .f32 :=
  VO3.read (Elt F) (VO3.writes (Elt F) VO3.junk (kernelRunB c i arg2 harg2 arg3 harg3 arg4 harg4 arg5 harg5 hc0 hc1 hc2 x0 x1 xo).2.1)

theorem cover2_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) (y : S1x256x1.Idx) :
    ∃ pc ∈ (kernelRunC c i arg2 harg2 arg3 harg3 arg4 harg4 arg5 harg5 hc0 hc1 hc2 x0 x1 xo).1, y ∈ pc.1.set :=
  View.cover_of_tiledL (kernelRunC c i arg2 harg2 arg3 harg3 arg4 harg4 arg5 harg5 hc0 hc1 hc2 x0 x1 xo).1 S1x256x1.size (by sl_kernel_rfl) y
theorem cover3_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) (y : S1x4096x1.Idx) :
    ∃ pc ∈ (kernelRunC c i arg2 harg2 arg3 harg3 arg4 harg4 arg5 harg5 hc0 hc1 hc2 x0 x1 xo).2.1, y ∈ pc.1.set :=
  View.cover_of_tiledL (kernelRunC c i arg2 harg2 arg3 harg3 arg4 harg4 arg5 harg5 hc0 hc1 hc2 x0 x1 xo).2.1 S1x4096x1.size (by sl_kernel_rfl) y
/-- A point of the last kind: the row results, and the square root of the lowered running column minimum. -/
def out2_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) : Vec F S1x256x1 .f32 :=
  VO2.read (Elt F) (VO2.writes (Elt F) VO2.junk (kernelRunC c i arg2 harg2 arg3 harg3 arg4 harg4 arg5 harg5 hc0 hc1 hc2 x0 x1 xo).1)
def out3_C (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) : Vec F S1x4096x1 .f32 :=
  VO3.read (Elt F) (VO3.writes (Elt F) VO3.junk (kernelRunC c i arg2 harg2 arg3 harg3 arg4 harg4 arg5 harg5 hc0 hc1 hc2 x0 x1 xo).2.1)

/-! ## Point by point -/

/-- What a point of the first kind leaves in the two output buffers, at its own memrefs and input blocks. -/
def caseA (c : Dev nD) (t : Fin cfg0.N) (h0 : t.val % 16 = 0) : Vec F S1x256x1 .f32 × Vec F S1x4096x1 .f32 :=
  (out2_A c (grid0.coords t) (ms0 t) (hs0 t) (ms1 t) (hs1 t) (ms2 t) (hs2 t) (ms3 t) (hs3 t) ((hcondA t).mpr h0) (fun h => (hcondB t).mp h h0) (fun h => by have := (hcondC t).mp h; omega) (iblk m c 0 t) (iblk m c 1 t),
   out3_A c (grid0.coords t) (ms0 t) (hs0 t) (ms1 t) (hs1 t) (ms2 t) (hs2 t) (ms3 t) (hs3 t) ((hcondA t).mpr h0) (fun h => (hcondB t).mp h h0) (fun h => by have := (hcondC t).mp h; omega) (iblk m c 0 t) (iblk m c 1 t))
/-- A point of the middle kind, over the running minimum xo the point before left. -/
def caseB (c : Dev nD) (t : Fin cfg0.N) (h0 : ¬t.val % 16 = 0) (h1 : ¬t.val % 16 = 15) (xo : Vec F S1x4096x1 .f32) : Vec F S1x256x1 .f32 × Vec F S1x4096x1 .f32 :=
  (out2_B c (grid0.coords t) (ms0 t) (hs0 t) (ms1 t) (hs1 t) (ms2 t) (hs2 t) (ms3 t) (hs3 t) (fun h => h0 ((hcondA t).mp h)) ((hcondB t).mpr h0) (fun h => h1 ((hcondC t).mp h)) (iblk m c 0 t) (iblk m c 1 t) xo,
   out3_B c (grid0.coords t) (ms0 t) (hs0 t) (ms1 t) (hs1 t) (ms2 t) (hs2 t) (ms3 t) (hs3 t) (fun h => h0 ((hcondA t).mp h)) ((hcondB t).mpr h0) (fun h => h1 ((hcondC t).mp h)) (iblk m c 0 t) (iblk m c 1 t) xo)
/-- A point of the last kind, over the running minimum xo the point before left. -/
def caseC (c : Dev nD) (t : Fin cfg0.N) (h0 : ¬t.val % 16 = 0) (h1 : t.val % 16 = 15) (xo : Vec F S1x4096x1 .f32) : Vec F S1x256x1 .f32 × Vec F S1x4096x1 .f32 :=
  (out2_C c (grid0.coords t) (ms0 t) (hs0 t) (ms1 t) (hs1 t) (ms2 t) (hs2 t) (ms3 t) (hs3 t) (fun h => h0 ((hcondA t).mp h)) ((hcondB t).mpr h0) ((hcondC t).mpr h1) (iblk m c 0 t) (iblk m c 1 t) xo,
   out3_C c (grid0.coords t) (ms0 t) (hs0 t) (ms1 t) (hs1 t) (ms2 t) (hs2 t) (ms3 t) (hs3 t) (fun h => h0 ((hcondA t).mp h)) ((hcondB t).mpr h0) ((hcondC t).mpr h1) (iblk m c 0 t) (iblk m c 1 t) xo)

/-- What the two output buffers hold after the body at position n: the kind of point its number selects, a point of the
    middle or last kind working on the second buffer as position n - 1 left it (the buffer is not written back between). -/
def outsAt0 (c : Dev nD) : (n : ℕ) → n < cfg0.N → Vec F S1x256x1 .f32 × Vec F S1x4096x1 .f32
  | 0, hn => caseA m c ⟨0, hn⟩ (Nat.zero_mod _)
  | n + 1, hn =>
    if h0 : (n + 1) % 16 = 0 then caseA m c ⟨n + 1, hn⟩ h0
    else if h1 : (n + 1) % 16 = 15 then caseC m c ⟨n + 1, hn⟩ h0 h1 (outsAt0 c n (Nat.lt_of_succ_lt hn)).2
    else caseB m c ⟨n + 1, hn⟩ h0 h1 (outsAt0 c n (Nat.lt_of_succ_lt hn)).2

theorem outsAt0_A (c : Dev nD) (t : Fin cfg0.N) (h0 : t.val % 16 = 0) : outsAt0 m c t.val t.isLt = caseA m c t h0 := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 m c t.val t.isLt = caseB m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = caseC m c t h0 h1 (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The arrays as the region finds them; after the body at a point each input's buffer at its block and the outputs' at
    what the recursion above says; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt0 m c t.val t.isLt).1 := by dsimp only [dats]
theorem after3 (c : Dev nD) (t : Fin cfg0.N) : (dats m 0 c).after 3 t = (outsAt0 m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The second output's window is live at every grid coordinate. -/
theorem live3_all : ∀ i : grid0.Coords, cfg0.idle 3 i = false := by decide +kernel

/-- At a point that is not an entry's first tile the second output's buffer holds what the point before left: the buffer
    was not written back between. -/
theorem before3_kept (c : Dev nD) (t : Fin cfg0.N) (h0 : ¬t.val % 16 = 0) (d) :
    (dats m 0 c).before 3 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    live3_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's number says which kind it is; at a point of
    the middle or last kind the second output's buffer holds what the point before left; so the kind's run applies, and
    what it leaves is what the recursion names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0,
    show (dats m 0 c).leavesExact 1 t = owns (c : Thread nD τ) (ms1 t) fullShare ((dats m 0 c).after 1 t) from by
      unfold Dat.leavesExact; rw [live1 t], after1,
    show (dats m 0 c).leavesExact 2 t = owns (c : Thread nD τ) (ms2 t) fullShare ((dats m 0 c).after 2 t) from by
      unfold Dat.leavesExact; rw [live2 t], after2,
    show (dats m 0 c).leavesExact 3 t = owns (c : Thread nD τ) (ms3 t) fullShare ((dats m 0 c).after 3 t) from by
      unfold Dat.leavesExact; rw [live3 t], after3]
  have hN : t.val < 256 := lt_of_lt_of_eq t.isLt (show cfg0.N = 256 from N_0)
  by_cases h0 : t.val % 16 = 0
  · rw [outsAt0_A m c t h0]
    unfold caseA out2_A out3_A; (try dsimp only)
    iintro ⟨HΦ, Ho, ⟨%d0, H0⟩, ⟨%d1, H1⟩, ⟨%d2, H2⟩, ⟨%d3, H3⟩⟩
    iapply ((kernelRunA c (grid0.coords t) _ _ _ _ _ _ _ _ ((hcondA t).mpr h0) (fun h => (hcondB t).mp h h0) (fun h => by have := (hcondC t).mp h; omega) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2_A c _ _ _ _ _ _ _ _ _ _ _ _ _ _)
    unfold owns; iexists _; isplitr
    swap; · iexact H3
    ipureintro; exact View.read_writes_of_cover _ _ _ _ _ (cover3_A c _ _ _ _ _ _ _ _ _ _ _ _ _ _)
  · by_cases h1 : t.val % 16 = 15
    · rw [outsAt0_C m c t h0 h1]
      simp only [before3_kept m c t h0]
      unfold caseC out2_C out3_C; (try dsimp only)
      iintro ⟨HΦ, Ho, ⟨%d0, H0⟩, ⟨%d1, H1⟩, ⟨%d2, H2⟩, ⟨%d3, H3⟩⟩
      iapply ((kernelRunC c (grid0.coords t) _ _ _ _ _ _ _ _ (fun h => h0 ((hcondA t).mp h)) ((hcondB t).mpr h0) ((hcondC t).mpr h1) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_C c _ _ _ _ _ _ _ _ _ _ _ _ _ _ _)
      unfold owns; iexists _; isplitr
      swap; · iexact H3
      ipureintro; exact View.read_writes_of_cover _ _ _ _ _ (cover3_C c _ _ _ _ _ _ _ _ _ _ _ _ _ _ _)
    · rw [outsAt0_B m c t h0 h1]
      simp only [before3_kept m c t h0]
      unfold caseB out2_B out3_B; (try dsimp only)
      iintro ⟨HΦ, Ho, ⟨%d0, H0⟩, ⟨%d1, H1⟩, ⟨%d2, H2⟩, ⟨%d3, H3⟩⟩
      iapply ((kernelRunB c (grid0.coords t) _ _ _ _ _ _ _ _ (fun h => h0 ((hcondA t).mp h)) ((hcondB t).mpr h0) (fun h => h1 ((hcondC t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2_B c _ _ _ _ _ _ _ _ _ _ _ _ _ _ _)
      unfold owns; iexists _; isplitr
      swap; · iexact H3
      ipureintro; exact View.read_writes_of_cover _ _ _ _ _ (cover3_B c _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in its final state every array of the pipeline is at what
    the proof data says and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates, faults nowhere, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Pieces.lean ====
/-
  What each kind of grid point of the distance kernel leaves in its two output buffers, as the named payloads of the
  two input blocks.

  Every load and every store of the body goes through the whole-shape rectangle at zero offsets of its buffer, so a
  load reads the buffer's contents and the last store into a buffer leaves its payload. The first output's buffer gets
  one store at every kind of point: the square roots of the row minima. The second output's buffer gets, at a point of
  the first kind, the tile's column minimum; at a point of the middle kind, the running minimum lowered by the tile's;
  at a point of the last kind two stores, the second of which stores the square root of what the first stored.
-/
import proofs.«101841_j19164144075465_1_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The zero offsets of a rank-three buffer, however spelt. -/
theorem hz3 : (![0, 0, 0] : Fin 3 → Nat) = fun _ => 0 := funext fun a => by fin_cases a <;> rfl

/-! ## A point of the first kind -/

/-- The first output's buffer after a point of the first kind: the one store's payload, the square roots of the row
    minima of the two blocks. -/
theorem out2_A_eq (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) :
    out2_A c i arg2 harg2 arg3 harg3 arg4 harg4 arg5 harg5 hc0 hc1 hc2 x0 x1 = k0_pay5 x0 x1 := by
  unfold out2_A
  rw [View.read_writes_eq_canon _ _ _ (cover2_A c i arg2 harg2 arg3 harg3 arg4 harg4 arg5 harg5 hc0 hc1 hc2 x0 x1)]
  unfold kernelRunA
  dsimp only
  sl_unfold_words
  rw [View.canon_unit_zero (S := S1x256x1) hz3]
  simp only [View.readAt_eq_ld, harg2.read_unread, harg3.read_unread, View.ld_unit_zero (S := S1x256x3) hz3, View.ld_unit_zero (S := S1x4096x3) hz3]

/-- The second output's buffer after a point of the first kind: the tile's own column minimum. -/
theorem out3_A_eq (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : condA i) (hc1 : ¬condB i) (hc2 : ¬condC i)
    (x0 : Vec F S1x256x3 .f32) (x1 : Vec F S1x4096x3 .f32) :
    out3_A c i arg2 harg2 arg3 harg3 arg4 harg4 arg5 harg5 hc0 hc1 hc2 x0 x1 = k0_pay6 x0 x1 := by
  unfold out3_A
  rw [View.read_writes_eq_canon _ _ _ (cover3_A c i arg2 harg2 arg3 harg3 arg4 harg4 arg5 harg5 hc0 hc1 hc2 x0 x1)]
  unfold kernelRunA
  dsimp only
  sl_unfold_words
  rw [View.canon_unit_zero (S := S1x4096x1) hz3]
  simp only [View.readAt_eq_ld, harg2.read_unread, harg3.read_unread, View.ld_unit_zero (S := S1x256x3) hz3, View.ld_unit_zero (S := S1x4096x3) hz3]

/-! ## A point of the middle kind -/

/-- The first output's buffer after a point of the middle kind: the square roots of the row minima. -/
theorem out2_B_eq (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) :
    out2_B c i arg2 harg2 arg3 harg3 arg4 harg4 arg5 harg5 hc0 hc1 hc2 x0 x1 xo = k0_pay5 x0 x1 := by
  unfold out2_B
  rw [View.read_writes_eq_canon _ _ _ (cover2_B c i arg2 harg2 arg3 harg3 arg4 harg4 arg5 harg5 hc0 hc1 hc2 x0 x1 xo)]
  unfold kernelRunB
  dsimp only
  sl_unfold_words
  rw [View.canon_unit_zero (S := S1x256x1) hz3]
  simp only [View.readAt_eq_ld, harg2.read_unread, harg3.read_unread, View.ld_unit_zero (S := S1x256x3) hz3, View.ld_unit_zero (S := S1x4096x3) hz3]

/-- The second output's buffer after a point of the middle kind: the running minimum it held, lowered by the tile's
    column minimum. -/
theorem out3_B_eq (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : ¬condC i)
    (x0 : Vec F S1x256x3 .f32) (x1 : Vec F S1x4096x3 .f32) (xo : Vec F S1x4096x1 .f32) :
    out3_B c i arg2 harg2 arg3 harg3 arg4 harg4 arg5 harg5 hc0 hc1 hc2 x0 x1 xo = k0_pay1 (k0_pay4 x0 x1) xo := by
  unfold out3_B
  rw [View.read_writes_eq_canon _ _ _ (cover3_B c i arg2 harg2 arg3 harg3 arg4 harg4 arg5 harg5 hc0 hc1 hc2 x0 x1 xo)]
  unfold kernelRunB
  dsimp only
  sl_unfold_words
  rw [View.canon_unit_zero (S := S1x4096x1) hz3]
  simp only [View.readAt_eq_ld, harg2.read_unread, harg3.read_unread, harg5.read_unread, View.ld_unit_zero (S := S1x256x3) hz3, View.ld_unit_zero (S := S1x4096x3) hz3, View.ld_unit_zero (S := S1x4096x1) hz3]

/-! ## A point of the last kind -/

/-- The first output's buffer after a point of the last kind: the square roots of the row minima. -/
theorem out2_C_eq (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) :
    out2_C c i arg2 harg2 arg3 harg3 arg4 harg4 arg5 harg5 hc0 hc1 hc2 x0 x1 xo = k0_pay5 x0 x1 := by
  unfold out2_C
  rw [View.read_writes_eq_canon _ _ _ (cover2_C c i arg2 harg2 arg3 harg3 arg4 harg4 arg5 harg5 hc0 hc1 hc2 x0 x1 xo)]
  unfold kernelRunC
  dsimp only
  sl_unfold_words
  rw [View.canon_unit_zero (S := S1x256x1) hz3]
  simp only [View.readAt_eq_ld, harg2.read_unread, harg3.read_unread, View.ld_unit_zero (S := S1x256x3) hz3, View.ld_unit_zero (S := S1x4096x3) hz3]

/-- The second output's buffer after a point of the last kind. Two stores went into it: first the running minimum
    lowered by the tile's column minimum, then, after loading back what that store left, its square root. The later
    store covers the buffer, and the load between the two reads the earlier store's payload. -/
theorem out3_C_eq (c : Dev nD) (i : grid0.Coords) (arg2 : Memref sig .tc .vmem S1x256x3 .f32) (harg2 : arg2.IsWhole) (arg3 : Memref sig .tc .vmem S1x4096x3 .f32) (harg3 : arg3.IsWhole) (arg4 : Memref sig .tc .vmem S1x256x1 .f32) (harg4 : arg4.IsWhole) (arg5 : Memref sig .tc .vmem S1x4096x1 .f32) (harg5 : arg5.IsWhole) (hc0 : ¬condA i) (hc1 : condB i) (hc2 : condC i)
    (x0 : Vec F S1x256x3 .f32) (x1 : Vec F S1x4096x3 .f32) (xo : Vec F S1x4096x1 .f32) :
    out3_C c i arg2 harg2 arg3 harg3 arg4 harg4 arg5 harg5 hc0 hc1 hc2 x0 x1 xo = k0_pay2 (k0_pay1 (k0_pay4 x0 x1) xo) := by
  unfold out3_C
  rw [View.read_writes_eq_canon _ _ _ (cover3_C c i arg2 harg2 arg3 harg3 arg4 harg4 arg5 harg5 hc0 hc1 hc2 x0 x1 xo)]
  unfold kernelRunC
  dsimp only
  sl_unfold_words
  dsimp only
  rw [View.canon_cons_unit_zero (S := S1x4096x1) hz3, View.readCov_unit_zero (S := S1x4096x1) _ hz3]
  simp only [View.readAt_eq_ld, harg2.read_unread, harg3.read_unread, harg5.read_unread, View.ld_unit_zero (S := S1x256x3) hz3, View.ld_unit_zero (S := S1x4096x3) hz3, View.ld_unit_zero (S := S1x4096x1) hz3]

/-! ## At the grid points themselves -/

theorem caseA_fst (c : Dev nD) (t : Fin cfg0.N) (h0 : t.val % 16 = 0) :
    (caseA m c t h0).1 = k0_pay5 (iblk m c 0 t) (iblk m c 1 t) := by
  unfold caseA
  dsimp only
  exact out2_A_eq (F := F) c (grid0.coords t) (ms0 t) (hs0 t) (ms1 t) (hs1 t) (ms2 t) (hs2 t) (ms3 t) (hs3 t) ((hcondA t).mpr h0) (fun h => (hcondB t).mp h h0) (fun h => by have := (hcondC t).mp h; omega) (iblk m c 0 t) (iblk m c 1 t)

theorem caseA_snd (c : Dev nD) (t : Fin cfg0.N) (h0 : t.val % 16 = 0) :
    (caseA m c t h0).2 = k0_pay6 (iblk m c 0 t) (iblk m c 1 t) := by
  unfold caseA
  dsimp only
  exact out3_A_eq (F := F) c (grid0.coords t) (ms0 t) (hs0 t) (ms1 t) (hs1 t) (ms2 t) (hs2 t) (ms3 t) (hs3 t) ((hcondA t).mpr h0) (fun h => (hcondB t).mp h h0) (fun h => by have := (hcondC t).mp h; omega) (iblk m c 0 t) (iblk m c 1 t)

theorem caseB_fst (c : Dev nD) (t : Fin cfg0.N) (h0 : ¬t.val % 16 = 0) (h1 : ¬t.val % 16 = 15) (xo : Vec F S1x4096x1 .f32) :
    (caseB m c t h0 h1 xo).1 = k0_pay5 (iblk m c 0 t) (iblk m c 1 t) := by
  unfold caseB
  dsimp only
  exact out2_B_eq (F := F) c (grid0.coords t) (ms0 t) (hs0 t) (ms1 t) (hs1 t) (ms2 t) (hs2 t) (ms3 t) (hs3 t) (fun h => h0 ((hcondA t).mp h)) ((hcondB t).mpr h0) (fun h => h1 ((hcondC t).mp h)) (iblk m c 0 t) (iblk m c 1 t) xo

theorem caseB_snd (c : Dev nD) (t : Fin cfg0.N) (h0 : ¬t.val % 16 = 0) (h1 : ¬t.val % 16 = 15) (xo : Vec F S1x4096x1 .f32) :
    (caseB m c t h0 h1 xo).2 = k0_pay1 (k0_pay4 (iblk m c 0 t) (iblk m c 1 t)) xo := by
  unfold caseB
  dsimp only
  exact out3_B_eq (F := F) c (grid0.coords t) (ms0 t) (hs0 t) (ms1 t) (hs1 t) (ms2 t) (hs2 t) (ms3 t) (hs3 t) (fun h => h0 ((hcondA t).mp h)) ((hcondB t).mpr h0) (fun h => h1 ((hcondC t).mp h)) (iblk m c 0 t) (iblk m c 1 t) xo

theorem caseC_fst (c : Dev nD) (t : Fin cfg0.N) (h0 : ¬t.val % 16 = 0) (h1 : t.val % 16 = 15) (xo : Vec F S1x4096x1 .f32) :
    (caseC m c t h0 h1 xo).1 = k0_pay5 (iblk m c 0 t) (iblk m c 1 t) := by
  unfold caseC
  dsimp only
  exact out2_C_eq (F := F) c (grid0.coords t) (ms0 t) (hs0 t) (ms1 t) (hs1 t) (ms2 t) (hs2 t) (ms3 t) (hs3 t) (fun h => h0 ((hcondA t).mp h)) ((hcondB t).mpr h0) ((hcondC t).mpr h1) (iblk m c 0 t) (iblk m c 1 t) xo

theorem caseC_snd (c : Dev nD) (t : Fin cfg0.N) (h0 : ¬t.val % 16 = 0) (h1 : t.val % 16 = 15) (xo : Vec F S1x4096x1 .f32) :
    (caseC m c t h0 h1 xo).2 = k0_pay2 (k0_pay1 (k0_pay4 (iblk m c 0 t) (iblk m c 1 t)) xo) := by
  unfold caseC
  dsimp only
  exact out3_C_eq (F := F) c (grid0.coords t) (ms0 t) (hs0 t) (ms1 t) (hs1 t) (ms2 t) (hs2 t) (ms3 t) (hs3 t) (fun h => h0 ((hcondA t).mp h)) ((hcondB t).mpr h0) ((hcondC t).mpr h1) (iblk m c 0 t) (iblk m c 1 t) xo

end Cert.KernelIdeal.Hand

end
-- ==== Proof.KI.Blocks.lean ====
/-
  Each input window's block at a grid point is a slab of its argument array.

  The grid is 16 batch entries by 16 tiles, walked entry by entry: point t is tile t mod 16 of entry t div 16. The first
  cloud's window moves with both coordinates, so its block at t is the 256 points of that tile, rows
  256 (t mod 16) + r of entry t div 16; the second cloud's window moves with the entry only, so its block is the whole
  entry t div 16. The index maps of the four windows are decided once over the 256 points; an element of a block is
  then the array's element at block index times block size plus the coordinate inside the block, axis by axis.
-/
import proofs.«101841_j19164144075465_1_alg».proof.Proof.KI.Frame
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (m : (ℓ : Loc nD τ sig) → Buf (Elt F) ℓ)

/-- The batch entry of grid point t. -/
def bOf (t : Fin cfg0.N) : Fin 16 := ⟨t.val / 16, by have := lt_of_lt_of_eq t.isLt (show cfg0.N = 256 from N_0); omega⟩
/-- The tile of grid point t within its entry. -/
def kOf (t : Fin cfg0.N) : Fin 16 := ⟨t.val % 16, Nat.mod_lt _ (by decide)⟩
/-- Row r of tile k among the 4096 points of an entry. -/
def rowOf (k : Fin 16) (r : Fin 256) : Fin 4096 := ⟨k.val * 256 + r.val, by have := k.isLt; have := r.isLt; omega⟩

/-- The first cloud's window is at block (entry, tile, 0). -/
theorem idx0_facts : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

/-- The second cloud's window is at block (entry, 0, 0). -/
theorem idx1_facts : ∀ t : Fin cfg0.N, win0_1.index t (0 : Fin 3) = t.val / 16 ∧ win0_1.index t (1 : Fin 3) = 0
    ∧ win0_1.index t (2 : Fin 3) = 0 :=
  (by decide +kernel : ∀ t : Fin grid0.N, _)

/-- The row results' window is at block (entry, tile, 0). -/
theorem idx2_facts : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, _)

/-- The column results' window is at block (entry, 0, 0). -/
theorem idx3_facts : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- The first cloud's block at point t holds rows 256 k + r of entry b, for b and k the point's entry and tile. -/
theorem iblk0_apply (c : Dev nD) (t : Fin cfg0.N) (r : Fin 256) (cc : Fin 3) :
    iblk m c 0 t (ix3 (0 : Fin 1) r cc) = V m c main_arg0 (ix3 (bOf t) (rowOf (kOf t) r) cc) := by
  obtain ⟨e0, e1, e2⟩ := idx0_facts t
  show V m c main_arg0 (((cfg0.win 0).blk t).view.emb (ix3 (0 : Fin 1) r cc)) = _
  refine congrArg _ (funext fun a => Fin.ext ?_)
  match a with
  | ⟨0, _⟩ => show win0_0.index t (0 : Fin 3) * 1 + 1 * 0 = t.val / 16; omega
  | ⟨1, _⟩ => show win0_0.index t (1 : Fin 3) * 256 + 1 * r.val = t.val % 16 * 256 + r.val; omega
  | ⟨2, _⟩ => show win0_0.index t (2 : Fin 3) * 3 + 1 * cc.val = cc.val; omega

/-- The second cloud's block at point t holds the whole entry b, for b the point's entry. -/
theorem iblk1_apply (c : Dev nD) (t : Fin cfg0.N) (n : Fin 4096) (cc : Fin 3) :
    iblk m c 1 t (ix3 (0 : Fin 1) n cc) = V m c main_arg1 (ix3 (bOf t) n cc) := by
  obtain ⟨e0, e1, e2⟩ := idx1_facts t
  show V m c main_arg1 (((cfg0.win 1).blk t).view.emb (ix3 (0 : Fin 1) n cc)) = _
  refine congrArg _ (funext fun a => Fin.ext ?_)
  match a with
  | ⟨0, _⟩ => show win0_1.index t (0 : Fin 3) * 1 + 1 * 0 = t.val / 16; omega
  | ⟨1, _⟩ => show win0_1.index t (1 : Fin 3) * 4096 + 1 * n.val = n.val; omega
  | ⟨2, _⟩ => show win0_1.index t (2 : Fin 3) * 3 + 1 * cc.val = cc.val; omega

end Cert.KernelIdeal.Hand

end
-- ==== Proof.Spec.lean ====
/-
  The mathematics both programs compute, over the extended reals, with no program imported.

  For two clouds of 4096 points in three coordinates per batch entry (16 entries), the squared distance between
  point n of the first cloud and point m of the second is taken through the expansion
  |x|^2 + |y|^2 - 2<x, y> and clamped below at zero. Every point of the first cloud keeps the least such value over the
  second cloud (rowMin), every point of the second the least over the first (colMin); the two families of square
  roots are averaged, the two averages added, halved and scaled by a thousand (finish).
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- A batch of point clouds: 16 entries of 4096 points of 3 coordinates. -/
abbrev Cloud : Shape := ⟨3, ![16, 4096, 3]⟩
/-- One value per point of a batch of clouds. -/
abbrev PerPoint : Shape := ⟨2, ![16, 4096]⟩
/-- The scalar shape. -/
abbrev Scal : Shape := ⟨0, ![]⟩

/-- The squared norm of a point: the sum of its three squared coordinates. -/
def sqR (p : Fin 3 → EReal) : EReal := ∑ c : Fin 3, p c * p c

/-- The inner product of two points. -/
def dotR (p q : Fin 3 → EReal) : EReal := ∑ c : Fin 3, p c * q c

/-- The clamped squared distance of two points, max (|x|^2 + |y|^2 - 2<x, y>, 0); the factor two and the zero are the
    binary32 values the programs carry. -/
def ddR (p q : Fin 3 → EReal) : EReal :=
  max ((sqR p + sqR q) - Ideal.ofBits .f32 0x40000000#32 * dotR p q) (Ideal.ofBits .f32 0x00000000#32)

/-- Point n of entry b of a batch of clouds, as its three coordinates. -/
def pt (a : FVec Ideal Cloud .f32) (b : Fin 16) (n : Fin 4096) : Fin 3 → EReal := fun c => a (ix3 b n c)

/-- The clamped squared distance between point n of the first cloud and point m of the second, in entry b. -/
def dd (a₁ a₂ : FVec Ideal Cloud .f32) (b : Fin 16) (n m : Fin 4096) : EReal := ddR (pt a₁ b n) (pt a₂ b m)

/-- The least clamped squared distance from point n of the first cloud to the second cloud. -/
def rowMin (a₁ a₂ : FVec Ideal Cloud .f32) (b : Fin 16) (n : Fin 4096) : EReal := ⨅ m : Fin 4096, dd a₁ a₂ b n m

/-- The least clamped squared distance from point m of the second cloud to the first cloud. -/
def colMin (a₁ a₂ : FVec Ideal Cloud .f32) (b : Fin 16) (m : Fin 4096) : EReal := ⨅ n : Fin 4096, dd a₁ a₂ b n m

/-- Nearest-neighbour distance of every point of the first cloud. -/
def near₁ (a₁ a₂ : FVec Ideal Cloud .f32) : FVec Ideal PerPoint .f32 :=
  fun j => Ideal.sqrt (rowMin a₁ a₂ (j 0) (j 1))

/-- Nearest-neighbour distance of every point of the second cloud. -/
def near₂ (a₁ a₂ : FVec Ideal Cloud .f32) : FVec Ideal PerPoint .f32 :=
  fun j => Ideal.sqrt (colMin a₁ a₂ (j 0) (j 1))

theorem near₁_apply (a₁ a₂ : FVec Ideal Cloud .f32) (b : Fin 16) (n : Fin 4096) :
    near₁ a₁ a₂ (ix2 b n) = Ideal.sqrt (rowMin a₁ a₂ b n) := rfl

theorem near₂_apply (a₁ a₂ : FVec Ideal Cloud .f32) (b : Fin 16) (m : Fin 4096) :
    near₂ a₁ a₂ (ix2 b m) = Ideal.sqrt (colMin a₁ a₂ b m) := rfl

/-- The closing scalar arithmetic on the two families of distances: each is summed from zero and divided by the number
    of its entries (65536), the two means are added, the sum is halved and multiplied by a thousand. The shape facts are
    arguments, so that each program's own evidence fits. -/
def finish (hR : PerPoint.ReducesTo [0, 1] Scal) (hS : 0 < Scal.numel) (X Y : FVec Ideal PerPoint .f32) : FVec Ideal Scal .f32 :=
  mulf (Host.divf
      (addf
        (Host.divf (Host.reduceAdd X (constant (F := Ideal) Scal .f32 0x00000000#32) hR hS) (constant (F := Ideal) Scal .f32 0x47800000#32))
        (Host.divf (Host.reduceAdd Y (constant (F := Ideal) Scal .f32 0x00000000#32) hR hS) (constant (F := Ideal) Scal .f32 0x47800000#32)))
      (constant (F := Ideal) Scal .f32 0x40000000#32))
    (constant (F := Ideal) Scal .f32 0x447A0000#32)

/-- The whole result as one function of the two clouds. -/
def result (hR : PerPoint.ReducesTo [0, 1] Scal) (hS : 0 < Scal.numel) (a₁ a₂ : FVec Ideal Cloud .f32) : FVec Ideal Scal .f32 :=
  finish hR hS (near₁ a₁ a₂) (near₂ a₁ a₂)

end Cert.Chamfer

end
-- ==== Proof.LibInf.lean ====
/-
  Least values over finite index sets of extended reals.

  A running minimum that starts from plus infinity and takes in every member of a finite family, in any order, ends at
  the family's infimum; and the infimum over 4096 consecutive indices is the infimum, over 16 consecutive tiles of 256,
  of the tiles' infima. The binary32 pattern 0x7F800000 denotes plus infinity, the top of the extended reals.
-/
import Idealize.ShloMosaic.PureOps.Ideal
import Idealize.ShloMosaic.PureOps.Ideal.Laws

noncomputable section

namespace Cert.LibInf

open Idealize.ShloMosaic

/-- The binary32 pattern of plus infinity is the top extended real. -/
theorem ofBits_inf_f32 : Ideal.ofBits .f32 0x7F800000#32 = (⊤ : EReal) := by
  simp [Ideal.ofBits, Ideal.ieee]

/-- The minimum folded from plus infinity over a whole finite index type is the infimum of the family. -/
theorem fold_min_univ_eq_iInf {ι : Type} [Fintype ι] (f : ι → EReal) :
    (Finset.univ : Finset ι).fold min (Ideal.ofBits .f32 0x7F800000#32) f = ⨅ i, f i := by
  -- the fold of the lattice meet from the top element is the finite infimum, and over the whole type that is
  -- the indexed infimum; in a linear order the meet is the minimum
  rw [ofBits_inf_f32, ← Finset.inf_univ_eq_iInf]
  rfl

/-- Index r of tile k among 16 tiles of 256. -/
def tileIdx (k : Fin 16) (r : Fin 256) : Fin 4096 := ⟨k.val * 256 + r.val, by have := k.isLt; have := r.isLt; omega⟩

/-- The infimum over 4096 indices is the infimum over the 16 tiles of the tiles' infima. -/
theorem iInf_tiles (f : Fin 4096 → EReal) : (⨅ n, f n) = ⨅ k : Fin 16, ⨅ r : Fin 256, f (tileIdx k r) := by
  apply le_antisymm
  · -- every tile member is a member of the whole family
    exact le_iInf fun k => le_iInf fun r => iInf_le f _
  · -- every index n is member n % 256 of tile n / 256
    refine le_iInf fun n => ?_
    have hn := n.isLt
    have e : tileIdx ⟨n.val / 256, by omega⟩ ⟨n.val % 256, by omega⟩ = n := by
      apply Fin.ext
      show n.val / 256 * 256 + n.val % 256 = n.val
      omega
    calc (⨅ k : Fin 16, ⨅ r : Fin 256, f (tileIdx k r))
        ≤ f (tileIdx ⟨n.val / 256, by omega⟩ ⟨n.val % 256, by omega⟩) := iInf_le_of_le _ (iInf_le _ _)
      _ = f n := by rw [e]

/-- The infimum over the first j + 1 tiles is the lesser of the infimum over the first j tiles and tile j's own. -/
theorem iInf_tiles_succ (g : Fin 16 → EReal) (j : ℕ) (hj : j + 1 < 16 + 1) :
    (⨅ k : Fin 16, ⨅ _ : k.val < j + 1, g k) = min (⨅ k : Fin 16, ⨅ _ : k.val < j, g k) (g ⟨j, by omega⟩) := by
  apply le_antisymm
  · refine le_min (le_iInf₂ fun k hk => iInf₂_le k (by omega)) ?_
    exact iInf₂_le (⟨j, by omega⟩ : Fin 16) (Nat.lt_succ_self j)
  · refine le_iInf₂ fun k hk => ?_
    by_cases h : k.val < j
    · exact (min_le_left _ _).trans (iInf₂_le k h)
    · -- k is tile j itself
      have hk' : k = ⟨j, by omega⟩ := Fin.ext (by show k.val = j; omega)
      exact (min_le_right _ _).trans (le_of_eq (by rw [hk']))

end Cert.LibInf

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.Payload.lean ====
/-
  The kernel's payloads read at an index, over the extended reals.

  One grid step holds a tile of 256 points of the first cloud (rows) and all 4096 points of the second (columns). Its
  matrix payload is, entry by entry, the clamped squared distance of a row point and a column point, through the
  expansion |x|^2 + |y|^2 - 2<x, y>: the two squared norms are lane sums of the squared coordinates, spread along
  rows and along columns, and the inner products are one matrix product of the two coordinate matrices. The other
  payloads are the least entry of each row (then its square root), the least entry of each column, the column
  minimum merged into a running minimum, and the square root of the running minimum. A change of format is the
  identity on extended reals, a shape cast keeps the row-major position, and a transpose swaps the two coordinates.
-/
import proofs.«101841_j19164144075465_1_alg».proof.Proof.Gen.KernelIdeal.Skeleton
import proofs.«101841_j19164144075465_1_alg».proof.Proof.Spec
import proofs.«101841_j19164144075465_1_alg».proof.Proof.LibInf
import proofs.«101841_j19164144075465_1_alg».proof.Proof.LibColumn
import Idealize.ShloMosaic.Lib.ValueIdx
import Idealize.ShloMosaic.Lib.ValueLayout
import Idealize.ShloMosaic.PureOps.Reduce
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Chamfer

/-! ## A square root at an index -/

/-- A square root at an index is the square root of the element. -/
theorem sqrt_apply {s : Shape} {φ : FTy} (v : FVec Ideal s φ) (i : s.Idx) :
    Idealize.ShloMosaic.sqrt v i = Ideal.sqrt (v i) := rfl

/-! ## Sums and minima along one axis of a matrix -/

/-- The sum along the lanes of an `[a, 3]` matrix is, at row `r`, the sum of the row's three entries. -/
theorem laneSum_apply {a : ℕ} (v : FVec Ideal ⟨2, ![a, 3]⟩ .f32) (h : (⟨2, ![a, 3]⟩ : Shape).Reduces [1] ⟨1, ![a]⟩)
    (hφ : FKind.Formats .f32) (hacc : (0x00000000#32 : BitVec 32) = 0x00000000#32) (r : Fin a) :
    multiReduction (F := Ideal) .add [1] ⟨1, ![a]⟩ v 0x00000000#32 h hφ hacc (ix1 r) = ∑ c : Fin 3, v (ix2 r c) := by
  refine (Ideal.multiReduction_add_single v 0x00000000#32 h hφ hacc (ix1 r)).trans ?_
  refine Finset.sum_congr rfl fun c _ => congrArg v ?_
  funext ax
  apply Fin.ext
  match ax with
  | ⟨0, _⟩ => rfl
  | ⟨1, _⟩ => rfl

/-- A minimum taken along one axis from plus infinity is the infimum over that axis's coordinates. -/
theorem multiReduction_minimumf_single {s t : Shape} {a : Fin s.rank} (src : FVec Ideal s .f32) (h : s.Reduces [a] t)
    (hφ : FKind.Formats .f32) (hacc : (0x7F800000#32 : BitVec 32) = 0x7F800000#32) (j : t.Idx) :
    multiReduction (F := Ideal) .minimumf [a] t src 0x7F800000#32 h hφ hacc j = ⨅ k : Fin (s.size a), src (h.lift j k) := by
  refine (multiReduction_minimumf_eq_fold src 0x7F800000#32 h hφ hacc j).trans ?_
  refine (h.fold_filter_drop_single _ _ src j).trans ?_
  exact Cert.LibInf.fold_min_univ_eq_iInf (src ∘ h.lift j)

/-- The minimum along the lanes of an `[a, b]` matrix is, at row `r`, the infimum of the row. -/
theorem rowMin_apply {a b : ℕ} (M : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (r : Fin a) :
    multiReduction (F := Ideal) .minimumf [1] ⟨1, ![a]⟩ M 0x7F800000#32 h hφ hacc (ix1 r) = ⨅ m : Fin b, M (ix2 r m) := by
  refine (multiReduction_minimumf_single M h hφ hacc (ix1 r)).trans ?_
  refine iInf_congr fun k => congrArg M ?_
  funext ax
  apply Fin.ext
  match ax with
  | ⟨0, _⟩ => rfl
  | ⟨1, _⟩ => rfl

/-- The minimum along the rows of an `[a, b]` matrix is, at column `m`, the infimum of the column. -/
theorem colMin_apply {a b : ℕ} (M : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (m : Fin b) :
    multiReduction (F := Ideal) .minimumf [0] ⟨1, ![b]⟩ M 0x7F800000#32 h hφ hacc (ix1 m) = ⨅ r : Fin a, M (ix2 r m) := by
  refine (multiReduction_minimumf_single M h hφ hacc (ix1 m)).trans ?_
  refine iInf_congr fun k => congrArg M ?_
  funext ax
  apply Fin.ext
  match ax with
  | ⟨0, _⟩ => rfl
  | ⟨1, _⟩ => rfl

/-! ## The matrix product of the two coordinate matrices -/

/-- The left operand is read at the output's row … -/
theorem lhs_mm_0 (i : S256x4096.Idx) (q : dot_S256x3_S4096x3_S256x4096_1_1_0_0_n_n.contr.Idx) :
    (dot_S256x3_S4096x3_S256x4096_1_1_0_0_n_n.lhsIdx i q 0).val = (i 0).val := by
  unfold DotDims.lhsIdx
  rw [dif_neg (show ¬(0 : Fin S256x3.rank) ∈ dot_S256x3_S4096x3_S256x4096_1_1_0_0_n_n.lhsBatch by decide), dif_pos (show (0 : Fin S256x3.rank) ∈ dot_S256x3_S4096x3_S256x4096_1_1_0_0_n_n.lhsNonContracting by decide)]
  rfl
/-- … and at the contraction's coordinate. -/
theorem lhs_mm_1 (i : S256x4096.Idx) (q : dot_S256x3_S4096x3_S256x4096_1_1_0_0_n_n.contr.Idx) :
    (dot_S256x3_S4096x3_S256x4096_1_1_0_0_n_n.lhsIdx i q 1).val = (q ⟨0, by decide⟩).val :=
  dot_S256x3_S4096x3_S256x4096_1_1_0_0_n_n.lhsIdx_val_of_single rfl i q
/-- The right operand is read at the output's column, which is its own row … -/
theorem rhs_mm_0 (i : S256x4096.Idx) (q : dot_S256x3_S4096x3_S256x4096_1_1_0_0_n_n.contr.Idx) :
    (dot_S256x3_S4096x3_S256x4096_1_1_0_0_n_n.rhsIdx i q 0).val = (i 1).val := by
  unfold DotDims.rhsIdx
  rw [dif_neg (show ¬(0 : Fin S4096x3.rank) ∈ dot_S256x3_S4096x3_S256x4096_1_1_0_0_n_n.rhsBatch by decide), dif_pos (show (0 : Fin S4096x3.rank) ∈ dot_S256x3_S4096x3_S256x4096_1_1_0_0_n_n.rhsNonContracting by decide)]
  rfl
/-- … and at the contraction's coordinate. -/
theorem rhs_mm_1 (i : S256x4096.Idx) (q : dot_S256x3_S4096x3_S256x4096_1_1_0_0_n_n.contr.Idx) :
    (dot_S256x3_S4096x3_S256x4096_1_1_0_0_n_n.rhsIdx i q 1).val = (q ⟨0, by decide⟩).val :=
  dot_S256x3_S4096x3_S256x4096_1_1_0_0_n_n.rhsIdx_val_of_single rfl i q

/-- Into a zero accumulator the product of an `[256, 3]` and an `[4096, 3]` matrix, contracted along the three
    coordinates, is at `(r, m)` the inner product of row `r` of the first and row `m` of the second. -/
theorem mm_apply {φ₁ φ₂ : FTy} (A : FVec Ideal S256x3 φ₁) (B : FVec Ideal S4096x3 φ₂) (r : Fin 256) (m : Fin 4096) :
    matmul dot_S256x3_S4096x3_S256x4096_1_1_0_0_n_n none A B (constant (F := Ideal) S256x4096 .f32 0x00000000#32) (ix2 r m)
      = ∑ c : Fin 3, A (ix2 r c) * B (ix2 m c) := by
  simp only [matmul]
  rw [Ideal.matmul_constant_zero_apply, ← Equiv.sum_comp (contrEquiv1 dot_S256x3_S4096x3_S256x4096_1_1_0_0_n_n 3 rfl rfl).symm]
  refine Finset.sum_congr rfl fun k _ => ?_
  have hk := contrEquiv1_symm_val dot_S256x3_S4096x3_S256x4096_1_1_0_0_n_n 3 rfl rfl k
  have el : dot_S256x3_S4096x3_S256x4096_1_1_0_0_n_n.lhsIdx (ix2 r m) ((contrEquiv1 dot_S256x3_S4096x3_S256x4096_1_1_0_0_n_n 3 rfl rfl).symm k) = ix2 r k := funext fun a => Fin.ext (by
    match a with
    | ⟨0, _⟩ => exact lhs_mm_0 _ _
    | ⟨1, _⟩ => exact (lhs_mm_1 _ _).trans hk)
  have er : dot_S256x3_S4096x3_S256x4096_1_1_0_0_n_n.rhsIdx (ix2 r m) ((contrEquiv1 dot_S256x3_S4096x3_S256x4096_1_1_0_0_n_n 3 rfl rfl).symm k) = ix2 m k := funext fun a => Fin.ext (by
    match a with
    | ⟨0, _⟩ => exact rhs_mm_0 _ _
    | ⟨1, _⟩ => exact (rhs_mm_1 _ _).trans hk)
  rw [el, er]

/-! ## The payloads -/

variable (x0 : Vec Ideal S1x256x3 .f32) (x1 : Vec Ideal S1x4096x3 .f32)

/-- The matrix payload at `(r, m)` is the clamped squared distance of row point `r` and column point `m`. -/
theorem pay3_apply (r : Fin 256) (m : Fin 4096) :
    k0_pay3 (F := Ideal) x0 x1 (ix2 r m)
      = ddR (fun c => x0 (ix3 (0 : Fin 1) r c)) (fun c => x1 (ix3 (0 : Fin 1) m c)) := by
  unfold k0_pay3
  simp only [maximumf_apply, subf_apply, addf_apply, mulf_apply, broadcast_apply]
  rw [Cert.LibColumn.broadcastTo_a1_ab_apply, Cert.LibColumn.shapeCast_a_a1_apply, broadcastTo_1b_ab_apply,
    transpose_ix2_apply, Cert.LibColumn.shapeCast_a_a1_apply, laneSum_apply, laneSum_apply, mm_apply]
  simp only [mulf_apply, truncf_apply, shapeCast_1ab_ab_apply]
  rfl

/-- The first output's payload at row `r` is the square root of the least clamped squared distance from row point `r`
    to the column points. -/
theorem pay5_apply (r : Fin 256) :
    k0_pay5 (F := Ideal) x0 x1 (ix3 (0 : Fin 1) r (0 : Fin 1))
      = Ideal.sqrt (⨅ m : Fin 4096, ddR (fun c => x0 (ix3 (0 : Fin 1) r c)) (fun c => x1 (ix3 (0 : Fin 1) m c))) := by
  unfold k0_pay5
  rw [shapeCast_ab_1ab_apply, sqrt_apply, Cert.LibColumn.shapeCast_a_a1_apply, rowMin_apply]
  simp only [pay3_apply]

/-- The column payload at `m` is the least clamped squared distance from column point `m` to the tile's row points. -/
theorem pay4_apply (m : Fin 4096) :
    k0_pay4 (F := Ideal) x0 x1 (ix2 m (0 : Fin 1))
      = ⨅ r : Fin 256, ddR (fun c => x0 (ix3 (0 : Fin 1) r c)) (fun c => x1 (ix3 (0 : Fin 1) m c)) := by
  unfold k0_pay4
  rw [transpose_ix2_apply, shapeCast_a_1a_apply, colMin_apply]
  simp only [pay3_apply]

/-- The same column payload under a leading unit axis. -/
theorem pay6_apply (m : Fin 4096) :
    k0_pay6 (F := Ideal) x0 x1 (ix3 (0 : Fin 1) m (0 : Fin 1))
      = ⨅ r : Fin 256, ddR (fun c => x0 (ix3 (0 : Fin 1) r c)) (fun c => x1 (ix3 (0 : Fin 1) m c)) := by
  unfold k0_pay6
  rw [shapeCast_ab_1ab_apply]
  exact pay4_apply x0 x1 m

/-- The merged payload at `m` is the lesser of the running minimum and the tile's column minimum. -/
theorem pay1_apply (v26 : FVec Ideal S4096x1 .f32) (v40 : Vec Ideal S1x4096x1 .f32) (m : Fin 4096) :
    k0_pay1 (F := Ideal) v26 v40 (ix3 (0 : Fin 1) m (0 : Fin 1))
      = min (v40 (ix3 (0 : Fin 1) m (0 : Fin 1))) (v26 (ix2 m (0 : Fin 1))) := by
  unfold k0_pay1
  rw [shapeCast_ab_1ab_apply, minimumf_apply, shapeCast_1ab_ab_apply]

/-- The closing payload at `m` is the square root of the running minimum. -/
theorem pay2_apply (v40 : Vec Ideal S1x4096x1 .f32) (m : Fin 4096) :
    k0_pay2 (F := Ideal) v40 (ix3 (0 : Fin 1) m (0 : Fin 1)) = Ideal.sqrt (v40 (ix3 (0 : Fin 1) m (0 : Fin 1))) := by
  unfold k0_pay2
  rw [shapeCast_ab_1ab_apply, sqrt_apply, shapeCast_1ab_ab_apply]

end Cert.KernelIdeal.Pay

end
-- ==== Proof.KI.Accum.lean ====
/-
  What the two output buffers hold after each grid point, as the specification's functions of the two clouds.

  The first output's buffer needs no history: after any point it holds the nearest-neighbour distances of the tile's 256
  rows. The second carries a running minimum through an entry's 16 tiles: after tile k (k below 15) it holds, for every
  point of the second cloud, the least clamped squared distance to the rows of tiles 0 … k; the last tile lowers it once
  more, which makes it the least over all 4096 rows, and replaces it by its square root. This is an induction on the point's
  number, one step per kind of point.
-/
import proofs.«101841_j19164144075465_1_alg».proof.Proof.KI.Pieces
import proofs.«101841_j19164144075465_1_alg».proof.Proof.KI.Blocks
import proofs.«101841_j19164144075465_1_alg».proof.Proof.KI.Payload
import proofs.«101841_j19164144075465_1_alg».proof.Proof.Spec
import proofs.«101841_j19164144075465_1_alg».proof.Proof.LibInf

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer Cert.KernelIdeal.Pay

variable (m : (ℓ : Loc nD τ sig) → Buf (Elt Ideal) ℓ)

/-- Row r of the first cloud's block at point t is point 256 k + r of entry b of the first cloud. -/
theorem row0_eq (c : Dev nD) (t : Fin cfg0.N) (r : Fin 256) :
    (fun cc : Fin 3 => iblk m c 0 t (ix3 (0 : Fin 1) r cc)) = pt (V m c main_arg0) (bOf t) (rowOf (kOf t) r) :=
  funext fun cc => iblk0_apply m c t r cc

/-- Row n of the second cloud's block at point t is point n of entry b of the second cloud. -/
theorem row1_eq (c : Dev nD) (t : Fin cfg0.N) (n : Fin 4096) :
    (fun cc : Fin 3 => iblk m c 1 t (ix3 (0 : Fin 1) n cc)) = pt (V m c main_arg1) (bOf t) n :=
  funext fun cc => iblk1_apply m c t n cc

/-- So the clamped squared distance of two block rows is that of the two clouds' points. -/
theorem ddR_blk (c : Dev nD) (t : Fin cfg0.N) (r : Fin 256) (n : Fin 4096) :
    ddR (fun cc : Fin 3 => iblk m c 0 t (ix3 (0 : Fin 1) r cc)) (fun cc : Fin 3 => iblk m c 1 t (ix3 (0 : Fin 1) n cc))
      = dd (V m c main_arg0) (V m c main_arg1) (bOf t) (rowOf (kOf t) r) n := by
  rw [row0_eq, row1_eq]; rfl

/-! ## The first output -/

/-- Whatever the kind of point, the first output's buffer holds the row payload of the two input blocks. -/
theorem fst_eq (c : Dev nD) (t : Fin cfg0.N) :
    (outsAt0 m c t.val t.isLt).1 = k0_pay5 (F := Ideal) (iblk m c 0 t) (iblk m c 1 t) := by
  by_cases h0 : t.val % 16 = 0
  · rw [outsAt0_A m c t h0]; exact caseA_fst m c t h0
  · by_cases h1 : t.val % 16 = 15
    · rw [outsAt0_C m c t h0 h1]; exact caseC_fst m c t h0 h1 _
    · rw [outsAt0_B m c t h0 h1]; exact caseB_fst m c t h0 h1 _

/-- After any point the first output's buffer holds, at row r, the nearest-neighbour distance of the tile's row r. -/
theorem out2_apply (c : Dev nD) (t : Fin cfg0.N) (r : Fin 256) :
    (outsAt0 m c t.val t.isLt).1 (ix3 (0 : Fin 1) r (0 : Fin 1))
      = Ideal.sqrt (rowMin (V m c main_arg0) (V m c main_arg1) (bOf t) (rowOf (kOf t) r)) := by
  rw [fst_eq]
  refine (pay5_apply (iblk m c 0 t) (iblk m c 1 t) r).trans ?_
  unfold rowMin
  exact congrArg Ideal.sqrt (iInf_congr fun n => ddR_blk m c t r n)

/-! ## The second output: the running minimum over an entry's tiles -/

/-- The least clamped squared distance from point n of the second cloud to the 256 rows of tile k of the first. -/
def tileMin (a₁ a₂ : FVec Ideal Cloud .f32) (b k : Fin 16) (n : Fin 4096) : EReal := ⨅ r : Fin 256, dd a₁ a₂ b (rowOf k r) n

/-- The least over the tiles numbered below j. -/
def runMin (a₁ a₂ : FVec Ideal Cloud .f32) (b : Fin 16) (j : ℕ) (n : Fin 4096) : EReal :=
  ⨅ k : Fin 16, ⨅ _ : k.val < j, tileMin a₁ a₂ b k n

theorem runMin_zero (a₁ a₂ : FVec Ideal Cloud .f32) (b : Fin 16) (n : Fin 4096) : runMin a₁ a₂ b 0 n = ⊤ := by
  unfold runMin; simp

theorem runMin_succ (a₁ a₂ : FVec Ideal Cloud .f32) (b : Fin 16) (j : ℕ) (hj : j < 16) (n : Fin 4096) :
    runMin a₁ a₂ b (j + 1) n = min (runMin a₁ a₂ b j n) (tileMin a₁ a₂ b ⟨j, hj⟩ n) :=
  Cert.LibInf.iInf_tiles_succ (fun k => tileMin a₁ a₂ b k n) j (by omega)

/-- Over all sixteen tiles it is the least over the whole first cloud. -/
theorem runMin_full (a₁ a₂ : FVec Ideal Cloud .f32) (b : Fin 16) (n : Fin 4096) : runMin a₁ a₂ b 16 n = colMin a₁ a₂ b n := by
  unfold runMin colMin
  rw [Cert.LibInf.iInf_tiles (fun nn => dd a₁ a₂ b nn n)]
  refine iInf_congr fun k => ?_
  rw [iInf_pos k.isLt]; rfl

/-- The tile's own column minimum, as the body computes it from the two blocks. -/
theorem pay4_blk (c : Dev nD) (t : Fin cfg0.N) (n : Fin 4096) :
    k0_pay4 (F := Ideal) (iblk m c 0 t) (iblk m c 1 t) (ix2 n (0 : Fin 1))
      = tileMin (V m c main_arg0) (V m c main_arg1) (bOf t) (kOf t) n :=
  (pay4_apply (iblk m c 0 t) (iblk m c 1 t) n).trans (iInf_congr fun r => ddR_blk m c t r n)

theorem pay6_blk (c : Dev nD) (t : Fin cfg0.N) (n : Fin 4096) :
    k0_pay6 (F := Ideal) (iblk m c 0 t) (iblk m c 1 t) (ix3 (0 : Fin 1) n (0 : Fin 1))
      = tileMin (V m c main_arg0) (V m c main_arg1) (bOf t) (kOf t) n :=
  (pay6_apply (iblk m c 0 t) (iblk m c 1 t) n).trans (iInf_congr fun r => ddR_blk m c t r n)

/-- THE RUNNING MINIMUM, point by point: after point number p the second output's buffer holds, at row n, the least over
    the tiles up to the point's own — or, at an entry's last tile, the square root of the least over the whole cloud. -/
theorem snd_inv (c : Dev nD) : ∀ (p : ℕ) (hp : p < cfg0.N) (n : Fin 4096),
    (outsAt0 m c p hp).2 (ix3 (0 : Fin 1) n (0 : Fin 1))
      = if p % 16 = 15 then Ideal.sqrt (colMin (V m c main_arg0) (V m c main_arg1) (bOf ⟨p, hp⟩) n)
        else runMin (V m c main_arg0) (V m c main_arg1) (bOf ⟨p, hp⟩) (p % 16 + 1) n := by
  intro p
  induction p with
  | zero =>
    intro hp n
    have h0 : (⟨0, hp⟩ : Fin cfg0.N).val % 16 = 0 := Nat.zero_mod _
    rw [if_neg (by decide)]
    rw [show outsAt0 m c 0 hp = caseA m c ⟨0, hp⟩ h0 from outsAt0_A m c ⟨0, hp⟩ h0, caseA_snd m c ⟨0, hp⟩ h0]
    refine (pay6_blk m c ⟨0, hp⟩ n).trans ?_
    show _ = runMin _ _ _ (0 + 1) n
    rw [runMin_succ _ _ _ 0 (by decide), runMin_zero, min_eq_right le_top]
    rfl
  | succ p ih =>
    intro hp n
    have hN : p + 1 < 256 := lt_of_lt_of_eq hp (show cfg0.N = 256 from N_0)
    have hb : (p + 1) % 16 ≠ 0 → bOf ⟨p, Nat.lt_of_succ_lt hp⟩ = bOf ⟨p + 1, hp⟩ := fun h =>
      Fin.ext (by show p / 16 = (p + 1) / 16; omega)
    by_cases h0 : (p + 1) % 16 = 0
    · rw [if_neg (by omega)]
      rw [show outsAt0 m c (p + 1) hp = caseA m c ⟨p + 1, hp⟩ h0 from outsAt0_A m c ⟨p + 1, hp⟩ h0, caseA_snd m c ⟨p + 1, hp⟩ h0]
      refine (pay6_blk m c ⟨p + 1, hp⟩ n).trans ?_
      rw [h0]
      show _ = runMin _ _ _ (0 + 1) n
      rw [runMin_succ _ _ _ 0 (by decide), runMin_zero, min_eq_right le_top]
      exact congrArg (fun k => tileMin _ _ _ k n) (Fin.ext h0)
    · by_cases h1 : (p + 1) % 16 = 15
      · rw [if_pos h1]
        rw [show outsAt0 m c (p + 1) hp = caseC m c ⟨p + 1, hp⟩ h0 h1 (outsAt0 m c p (Nat.lt_of_succ_lt hp)).2
            from outsAt0_C m c ⟨p + 1, hp⟩ h0 h1, caseC_snd m c ⟨p + 1, hp⟩ h0 h1]
        refine (pay2_apply _ n).trans (congrArg Ideal.sqrt ?_)
        refine (pay1_apply _ _ n).trans ?_
        rw [ih (Nat.lt_of_succ_lt hp) n, if_neg (by omega), pay4_blk m c ⟨p + 1, hp⟩ n, hb h0,
          show p % 16 + 1 = 15 by omega, ← runMin_full, runMin_succ _ _ _ 15 (by decide)]
        exact congrArg (fun k => min _ (tileMin _ _ _ k n)) (Fin.ext h1)
      · rw [if_neg h1]
        rw [show outsAt0 m c (p + 1) hp = caseB m c ⟨p + 1, hp⟩ h0 h1 (outsAt0 m c p (Nat.lt_of_succ_lt hp)).2
            from outsAt0_B m c ⟨p + 1, hp⟩ h0 h1, caseB_snd m c ⟨p + 1, hp⟩ h0 h1]
        refine (pay1_apply _ _ n).trans ?_
        rw [ih (Nat.lt_of_succ_lt hp) n, if_neg (by omega), pay4_blk m c ⟨p + 1, hp⟩ n, hb h0,
          show p % 16 + 1 = (p + 1) % 16 by omega]
        exact (runMin_succ _ _ _ ((p + 1) % 16) (Nat.mod_lt _ (by decide)) n).symm

/-- After an entry's last tile the second output's buffer holds, at row n, the nearest-neighbour distance of point n of the
    second cloud. -/
theorem out3_last_apply (c : Dev nD) (t : Fin cfg0.N) (h : t.val % 16 = 15) (n : Fin 4096) :
    (outsAt0 m c t.val t.isLt).2 (ix3 (0 : Fin 1) n (0 : Fin 1))
      = Ideal.sqrt (colMin (V m c main_arg0) (V m c main_arg1) (bOf t) n) := by
  rw [snd_inv m c t.val t.isLt n, if_pos h]

end Cert.KernelIdeal.Hand

end
-- ==== Proof.KI.Final.lean ====
/-
  The two output arrays after the run, and the program's result, as the specification's functions of the two clouds.

  Every point writes its tile's 256 row results back to rows 256 k + r of its entry, so the first output array ends
  holding, at (b, n, 0), the nearest-neighbour distance of point n of the first cloud. The second output's block is a whole
  entry and is written back after the entry's last tile only, when it holds the square roots of the finished column
  minima; so the second array ends holding, at (b, n, 0), the nearest-neighbour distance of point n of the second cloud.
  The lines after the region drop the unit axis of each array, average each, add the two means, halve and scale: the
  specification's closing arithmetic on the two families of distances.
-/
import proofs.«101841_j19164144075465_1_alg».proof.Proof.KI.Accum
import proofs.«101841_j19164144075465_1_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Chamfer

variable (m : (ℓ : Loc nD τ sig) → Buf (Elt Ideal) ℓ)

open Idealize.ShloMosaic.StableHlo

/-! ## The first output array: the first cloud's nearest-neighbour distances -/

/-- What the first output array ends holding: at (b, n, 0) the nearest-neighbour distance of point n of entry b of the
    first cloud. -/
abbrev rowsOut (c : Dev nD) : S16x4096x1.Idx → EReal :=
  fun i => Ideal.sqrt (rowMin (V m c main_arg0) (V m c main_arg1) (i 0) (i 1))

/-- What the second output array ends holding: at (b, n, 0) the nearest-neighbour distance of point n of entry b of the
    second cloud. -/
abbrev colsOut (c : Dev nD) : S16x4096x1.Idx → EReal :=
  fun i => Ideal.sqrt (colMin (V m c main_arg0) (V m c main_arg1) (i 0) (i 1))

/-- What point t writes back of the first output is block t of the row distances. -/
theorem flushed2_eq (c : Dev nD) (t : Fin cfg0.N) :
    (dats m 0 c).flushed 2 t = ((cfg0.win 2).blk t).view.read (Elt Ideal) (rowsOut m c) := by
  show (cfg0.win 2).cut (grid0.coords t) ((dats m 0 c).after 2 t) = _
  rw [after2]
  funext j
  obtain ⟨u, r, v, rfl⟩ : ∃ (u : Fin 1) (r : Fin 256) (v : Fin 1), j = ix3 u r v := ⟨j 0, j 1, j 2, eq_ix3 j⟩
  obtain rfl : u = 0 := Subsingleton.elim _ _
  obtain rfl : v = 0 := Subsingleton.elim _ _
  obtain ⟨e0, e1, e2⟩ := idx2_facts t
  show (outsAt0 m c t.val t.isLt).1 (ix3 (0 : Fin 1) r (0 : Fin 1))
    = rowsOut m c (((cfg0.win 2).blk t).view.emb (ix3 (0 : Fin 1) r (0 : Fin 1)))
  refine (out2_apply m c t r).trans ?_
  have h0 : (((cfg0.win 2).blk t).view.emb (ix3 (0 : Fin 1) r (0 : Fin 1))) 0 = bOf t :=
    Fin.ext (by show win0_2.index t (0 : Fin 3) * 1 + 1 * 0 = t.val / 16; omega)
  have h1 : (((cfg0.win 2).blk t).view.emb (ix3 (0 : Fin 1) r (0 : Fin 1))) 1 = rowOf (kOf t) r :=
    Fin.ext (by show win0_2.index t (1 : Fin 3) * 256 + 1 * r.val = t.val % 16 * 256 + r.val; omega)
  show _ = Ideal.sqrt (rowMin _ _ ((((cfg0.win 2).blk t).view.emb (ix3 (0 : Fin 1) r (0 : Fin 1))) 0)
    ((((cfg0.win 2).blk t).view.emb (ix3 (0 : Fin 1) r (0 : Fin 1))) 1))
  rw [h0, h1]

/-- An index of the first output array is in point t's block iff each coordinate is in the block's range on its axis. -/
theorem mem_blk2 (t : Fin cfg0.N) (i : S16x4096x1.Idx) :
    i ∈ ((cfg0.win 2).blk t).view.set ↔ ∀ a : Fin 3, win0_2.index t a * S1x256x1.size a ≤ (i a).val
      ∧ (i a).val < win0_2.index t a * S1x256x1.size a + S1x256x1.size a := by
  show i ∈ ((View.whole main_v0_0).slice (win0_2.rect t)).set ↔ _
  rw [View.set_slice_whole, Rect.mem_set_unit]
  exact Iff.rfl

/-- Row n of entry b lies in the block of tile n div 256 of that entry, and every point writes its block back. -/
theorem cover2 (i : S16x4096x1.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1 := (i 2).isLt
  obtain ⟨t, ht⟩ : ∃ t : Fin cfg0.N, t.val = 16 * (i 0).val + (i 1).val / 256 :=
    ⟨⟨16 * (i 0).val + (i 1).val / 256, Nat.lt_of_lt_of_eq (by omega) N_0.symm⟩, rfl⟩
  refine ⟨t, flush0_2 t, ?_⟩
  rw [mem_blk2]
  obtain ⟨e0, e1, e2⟩ := idx2_facts t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 1 ≤ (i 2).val ∧ (i 2).val < win0_2.index t (2 : Fin 3) * 1 + 1
    omega

/-- The first output array after the run. -/
theorem final2 (c : Dev nD) : (dats m 0 c).arrAt 2 cfg0.N
    = fun i => Ideal.sqrt (rowMin (V m c main_arg0) (V m c main_arg1) (i 0) (i 1)) :=
  (dats m 0 c).arrAt_eq_of_cover 2 (rowsOut m c) (fun t _ => flushed2_eq m c t) cover2

/-! ## The second output array: the second cloud's nearest-neighbour distances -/

/-- What an entry's last point writes back of the second output is that entry's block of the column distances. -/
theorem flushed3_eq (c : Dev nD) (t : Fin cfg0.N) (hf : (cfg0.win 3).flush t = true) :
    (dats m 0 c).flushed 3 t = ((cfg0.win 3).blk t).view.read (Elt Ideal) (colsOut m c) := by
  have h15 : t.val % 16 = 15 := (flush0_3 t).mp hf
  show (cfg0.win 3).cut (grid0.coords t) ((dats m 0 c).after 3 t) = _
  rw [after3]
  funext j
  obtain ⟨u, n, v, rfl⟩ : ∃ (u : Fin 1) (n : Fin 4096) (v : Fin 1), j = ix3 u n v := ⟨j 0, j 1, j 2, eq_ix3 j⟩
  obtain rfl : u = 0 := Subsingleton.elim _ _
  obtain rfl : v = 0 := Subsingleton.elim _ _
  obtain ⟨e0, e1, e2⟩ := idx3_facts t
  show (outsAt0 m c t.val t.isLt).2 (ix3 (0 : Fin 1) n (0 : Fin 1))
    = colsOut m c (((cfg0.win 3).blk t).view.emb (ix3 (0 : Fin 1) n (0 : Fin 1)))
  refine (out3_last_apply m c t h15 n).trans ?_
  have h0 : (((cfg0.win 3).blk t).view.emb (ix3 (0 : Fin 1) n (0 : Fin 1))) 0 = bOf t :=
    Fin.ext (by show win0_3.index t (0 : Fin 3) * 1 + 1 * 0 = t.val / 16; omega)
  have h1 : (((cfg0.win 3).blk t).view.emb (ix3 (0 : Fin 1) n (0 : Fin 1))) 1 = n :=
    Fin.ext (by show win0_3.index t (1 : Fin 3) * 4096 + 1 * n.val = n.val; omega)
  show _ = Ideal.sqrt (colMin _ _ ((((cfg0.win 3).blk t).view.emb (ix3 (0 : Fin 1) n (0 : Fin 1))) 0)
    ((((cfg0.win 3).blk t).view.emb (ix3 (0 : Fin 1) n (0 : Fin 1))) 1))
  rw [h0, h1]

/-- An index of the second output array is in point t's block iff each coordinate is in the block's range on its axis. -/
theorem mem_blk3 (t : Fin cfg0.N) (i : S16x4096x1.Idx) :
    i ∈ ((cfg0.win 3).blk t).view.set ↔ ∀ a : Fin 3, win0_3.index t a * S1x4096x1.size a ≤ (i a).val
      ∧ (i a).val < win0_3.index t a * S1x4096x1.size a + S1x4096x1.size a := by
  show i ∈ ((View.whole main_v0_1).slice (win0_3.rect t)).set ↔ _
  rw [View.set_slice_whole, Rect.mem_set_unit]
  exact Iff.rfl

/-- Every row of entry b lies in the entry's block, which the entry's last point writes back. -/
theorem cover3 (i : S16x4096x1.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 1 := (i 2).isLt
  obtain ⟨t, ht⟩ : ∃ t : Fin cfg0.N, t.val = 16 * (i 0).val + 15 :=
    ⟨⟨16 * (i 0).val + 15, Nat.lt_of_lt_of_eq (by omega) N_0.symm⟩, rfl⟩
  refine ⟨t, (flush0_3 t).mpr (by omega), ?_⟩
  rw [mem_blk3]
  obtain ⟨e0, e1, e2⟩ := idx3_facts t
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 4096 ≤ (i 1).val ∧ (i 1).val < win0_3.index t (1 : Fin 3) * 4096 + 4096
    omega
  | ⟨2, _⟩ =>
    show win0_3.index t (2 : Fin 3) * 1 ≤ (i 2).val ∧ (i 2).val < win0_3.index t (2 : Fin 3) * 1 + 1
    omega

/-- The second output array after the run. -/
theorem final3 (c : Dev nD) : (dats m 0 c).arrAt 3 cfg0.N
    = fun i => Ideal.sqrt (colMin (V m c main_arg0) (V m c main_arg1) (i 0) (i 1)) :=
  (dats m 0 c).arrAt_eq_of_cover 3 (colsOut m c) (fun t hf => flushed3_eq m c t hf) cover3

/-! ## The lines after the region: the program's result -/

/-- The first output array with its unit axis dropped is the family of the first cloud's distances. -/
theorem rows_cast (c : Dev nD) :
    shapeCast S16x4096 (rowsOut m c) shapeCasts_S16x4096x1_S16x4096 = near₁ (V m c main_arg0) (V m c main_arg1) := by
  funext i
  obtain ⟨b, n, rfl⟩ : ∃ (b : Fin 16) (n : Fin 4096), i = ix2 b n := ⟨i 0, i 1, eq_ix2 i⟩
  rw [shapeCast_apply (rowsOut m c) shapeCasts_S16x4096x1_S16x4096 (ix2 b n) (ix3 b n (0 : Fin 1))
    (by rw [Shape.rowMajor_val_three, Shape.rowMajor_val_two]
        show (b.val * 4096 + n.val) * 1 + 0 = b.val * 4096 + n.val
        omega)]
  rfl

/-- The second output array with its unit axis dropped is the family of the second cloud's distances. -/
theorem cols_cast (c : Dev nD) :
    shapeCast S16x4096 (colsOut m c) shapeCasts_S16x4096x1_S16x4096 = near₂ (V m c main_arg0) (V m c main_arg1) := by
  funext i
  obtain ⟨b, n, rfl⟩ : ∃ (b : Fin 16) (n : Fin 4096), i = ix2 b n := ⟨i 0, i 1, eq_ix2 i⟩
  rw [shapeCast_apply (colsOut m c) shapeCasts_S16x4096x1_S16x4096 (ix2 b n) (ix3 b n (0 : Fin 1))
    (by rw [Shape.rowMajor_val_three, Shape.rowMajor_val_two]
        show (b.val * 4096 + n.val) * 1 + 0 = b.val * 4096 + n.val
        omega)]
  rfl

/-- The program's result is the specification's: the lines after the region read the two output arrays as the run left
    them, drop their unit axes, and do the closing scalar arithmetic. -/
theorem kernel_result (c : Dev nD) :
    Pipeline.afterTail₀ cfgs (dats m) 0 (V0 m) [hostOps1] c main_v9
      = Chamfer.result reducesTo_S16x4096_S_d0_1 h_S_ (V m c main_arg0) (V m c main_arg1) := by
  unfold Pipeline.afterTail₀
  show StableHlo.after hostOps1 _ (Proc.devRef .tc main_v9) = _
  after_results
  have h2 : Pipeline.withArrays (cfgs 0).spec c (V0 m c) (fun w => (dats m 0 c).arrAt w (cfgs 0).N)
      (Proc.devRef .tc main_v0_0) = rowsOut m c :=
    (Pipeline.withArrays_arr spec0 launch0.win.arr_inj c _ _ 2).trans (final2 m c)
  have h3 : Pipeline.withArrays (cfgs 0).spec c (V0 m c) (fun w => (dats m 0 c).arrAt w (cfgs 0).N)
      (Proc.devRef .tc main_v0_1) = colsOut m c :=
    (Pipeline.withArrays_arr spec0 launch0.win.arr_inj c _ _ 3).trans (final3 m c)
  rw [h2, h3]
  unfold Chamfer.result Chamfer.finish
  rw [← rows_cast m c, ← cols_cast m c]
  rfl

end Cert.KernelIdeal.Hand

end
-- ==== Proof.RefValue.lean ====
/-
  The reference program computes the specification.

  Read one operation at a time, the reference forms at (b, n, m) the value
  max (|x|^2 + |y|^2 - 2<x, y>, 0) of the points x = a1[b, n] and y = a2[b, m]: the two squared norms are sums over the
  three coordinates started from zero, the inner product is the contraction over the same three coordinates, and the
  broadcasts only repeat a value along the axis it does not depend on. The two minimum reductions start from plus
  infinity and run over the last and over the middle axis, so they are the infima over m and over n; the closing
  scalar arithmetic is the specification's term by term.
-/
import proofs.«101841_j19164144075465_1_alg».proof.Proof.Gen.ReferenceIdeal.Run
import proofs.«101841_j19164144075465_1_alg».proof.Proof.Gen.ReferenceIdeal.Read
import proofs.«101841_j19164144075465_1_alg».proof.Proof.Spec
import proofs.«101841_j19164144075465_1_alg».proof.Proof.LibInf
import Idealize.ShloMosaic.PureOps.Reduce
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Gen Cert.ReferenceIdeal.Read Cert.Chamfer

variable (x0 x1 : (⟨S16x4096x3, .f32⟩ : BufTy).Contents (Elt Ideal))

/-- The first cloud's squared norm is read, through the two broadcasts, at the point (b, n). -/
theorem idx_sq0 (b : Fin 16) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- The second cloud's squared norm is read, through the two broadcasts, at the point (b, m). -/
theorem idx_sq1 (b : Fin 16) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The contraction reads the first cloud at the point (b, n). -/
theorem idx_dotl (b : Fin 16) (n m : Fin 4096) (k : Fin 3) : lidx_main_v4 (ix3 b n m) k = ix3 b n k :=
  funext fun a => Fin.ext (by match a with | ⟨0, _⟩ => rfl | ⟨1, _⟩ => rfl | ⟨2, _⟩ => rfl)

/-- The contraction reads the second cloud at the point (b, m). -/
theorem idx_dotr (b : Fin 16) (n m : Fin 4096) (k : Fin 3) : ridx_main_v4 (ix3 b n m) k = ix3 b m k :=
  funext fun a => Fin.ext (by match a with | ⟨0, _⟩ => rfl | ⟨1, _⟩ => rfl | ⟨2, _⟩ => rfl)

/-- The clamped squared distance, as the reference forms it at (b, n, m). -/
theorem v14_apply (b : Fin 16) (n m : Fin 4096) :
    val_main_v14 (F := Ideal) x0 x1 (ix3 b n m) = dd x0 x1 b n m := by
  rw [val_main_v14_apply, val_main_v12_apply, val_main_v13_apply, val_main_cst_2_apply, val_main_v9_apply,
    val_main_v11_apply, val_main_v7_apply, val_main_v8_apply, val_main_v10_apply, val_main_cst_1_apply,
    val_main_v4_apply, val_main_v5_apply, val_main_v6_apply, val_main_v1_apply, val_main_v3_apply,
    val_main_cst_apply, val_main_cst_0_apply]
  simp only [val_main_v0_apply, val_main_v2_apply, idx_sq0, idx_sq1, idx_dotl, idx_dotr, Ideal.ofBits_def,
    Ideal.addf_def, Ideal.subf_def, Ideal.mulf_def, Ideal.maximumf_def, dd, ddR, sqR, dotR, pt,
    Ideal.ofBits_zero_f32, zero_add]

/-- The shape fact of the minimum over the last axis, in the form that names the dropped coordinate. -/
theorem reduces_last : S16x4096x4096.Reduces [2] S16x4096 := by decide

/-- The shape fact of the minimum over the middle axis, in the form that names the dropped coordinate. -/
theorem reduces_mid : S16x4096x4096.Reduces [1] S16x4096 := by decide

/-- Inserting m as last coordinate over (b, n) gives (b, n, m). -/
theorem lift_last (b : Fin 16) (n m : Fin 4096) : reduces_last.lift (ix2 b n) m = ix3 b n m :=
  funext fun c => Fin.ext (by match c with | ⟨0, _⟩ => rfl | ⟨1, _⟩ => rfl | ⟨2, _⟩ => rfl)

/-- Inserting n as middle coordinate over (b, m) gives (b, n, m). -/
theorem lift_mid (b : Fin 16) (m n : Fin 4096) : reduces_mid.lift (ix2 b m) n = ix3 b n m :=
  funext fun c => Fin.ext (by match c with | ⟨0, _⟩ => rfl | ⟨1, _⟩ => rfl | ⟨2, _⟩ => rfl)

/-- The minimum over the last axis, started from plus infinity, is the least distance from point n of the first cloud
    to the second cloud. -/
theorem v15_apply (b : Fin 16) (n : Fin 4096) :
    val_main_v15 (F := Ideal) x0 x1 (ix2 b n) = rowMin x0 x1 b n := by
  unfold val_main_v15
  rw [Host.reduce_eq_fold_single _ _ _ reducesTo_S16x4096x4096_S16x4096_d2 reduces_last h_S_ (ix2 b n)]
  refine (LibInf.fold_min_univ_eq_iInf (ι := Fin 4096)
    (fun m => val_main_v14 (F := Ideal) x0 x1 (reduces_last.lift (ix2 b n) m))).trans ?_
  unfold rowMin
  refine iInf_congr fun m => ?_
  rw [lift_last, v14_apply]

/-- The minimum over the middle axis, started from plus infinity, is the least distance from point m of the second
    cloud to the first cloud. -/
theorem v16_apply (b : Fin 16) (m : Fin 4096) :
    val_main_v16 (F := Ideal) x0 x1 (ix2 b m) = colMin x0 x1 b m := by
  unfold val_main_v16
  rw [Host.reduce_eq_fold_single _ _ _ reducesTo_S16x4096x4096_S16x4096_d1 reduces_mid h_S_ (ix2 b m)]
  refine (LibInf.fold_min_univ_eq_iInf (ι := Fin 4096)
    (fun n => val_main_v14 (F := Ideal) x0 x1 (reduces_mid.lift (ix2 b m) n))).trans ?_
  unfold colMin
  refine iInf_congr fun n => ?_
  rw [lift_mid, v14_apply]

/-- The square roots of the minima over the last axis are the first cloud's nearest-neighbour distances. -/
theorem v17_eq : val_main_v17 (F := Ideal) x0 x1 = near₁ x0 x1 := by
  funext j
  obtain ⟨b, n, rfl⟩ : ∃ (b : Fin 16) (n : Fin 4096), j = ix2 b n := ⟨j 0, j 1, eq_ix2 j⟩
  rw [val_main_v17_apply, Ideal.hostUnary_sqrt_def, v15_apply, near₁_apply]

/-- The square roots of the minima over the middle axis are the second cloud's nearest-neighbour distances. -/
theorem v20_eq : val_main_v20 (F := Ideal) x0 x1 = near₂ x0 x1 := by
  funext j
  obtain ⟨b, m, rfl⟩ : ∃ (b : Fin 16) (m : Fin 4096), j = ix2 b m := ⟨j 0, j 1, eq_ix2 j⟩
  rw [val_main_v20_apply, Ideal.hostUnary_sqrt_def, v16_apply, near₂_apply]

/-- The reference's result is the specification's: the closing scalar arithmetic on the two families of distances. -/
theorem result_eq :
    val_main_v25 (F := Ideal) x0 x1 = result reducesTo_S16x4096_S_d0_1 h_S_ x0 x1 := by
  unfold val_main_v25 val_main_v24 val_main_v23 val_main_v22 val_main_v21 val_main_v19 val_main_v18
  rw [v17_eq, v20_eq]
  rfl

end Cert.ReferenceIdeal.RefValue

end
-- ==== Proof.Claims.lean ====
/-
  The five claims, assembled.

  Both printed kernels run to their end with their argument arrays unchanged (one argument, written once for both float
  instances); the reference, a straight line of host operations, does so by its run. Nothing was rewritten between the
  kernel and its idealization. At the ideal instance the kernel's result and the reference's are the same function of the
  two clouds: the mean nearest-neighbour distances in both directions, added, halved and scaled.
-/
import proofs.«101841_j19164144075465_1_alg».proof.Defs
import proofs.«101841_j19164144075465_1_alg».proof.Proof.Gen.Kernel
import proofs.«101841_j19164144075465_1_alg».proof.Proof.Gen.KernelIdeal
import proofs.«101841_j19164144075465_1_alg».proof.Proof.Gen.ReferenceIdeal
import proofs.«101841_j19164144075465_1_alg».proof.Proof.Gen.Pre_finite_inputs
import proofs.«101841_j19164144075465_1_alg».proof.Proof.Gen.ReferenceIdeal.Run
import proofs.«101841_j19164144075465_1_alg».proof.Proof.K.Frame
import proofs.«101841_j19164144075465_1_alg».proof.Proof.KI.Frame
import proofs.«101841_j19164144075465_1_alg».proof.Proof.KI.Final
import proofs.«101841_j19164144075465_1_alg».proof.Proof.RefValue

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance, from memories that agree on the two clouds, the kernel's result buffer ends at the closing
    arithmetic of the two families of nearest-neighbour distances (the kernel's run, its two output arrays read back,
    the host lines after it), and the reference's at the same term (its run, read operation by operation). -/
theorem algebraic : Cert.algebraic_KernelIdeal_ReferenceIdeal := by
  intro m ρ m' ρ' _ hagree
  refine ⟨fun c => Cert.Chamfer.result Cert.KernelIdeal.Facts₀.reducesTo_S16x4096_S_d0_1 Cert.KernelIdeal.Facts₀.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun r h c => ⟨?_, ?_, ?_⟩) (Cert.KernelIdeal.Hand.run_main m ρ)
    · exact ((h c).2 Cert.KernelIdeal.main_v9 (by decide)).trans (Cert.KernelIdeal.Hand.kernel_result m c)
    · exact ((h c).1 0).trans (((Cert.KernelIdeal.Hand.dats m 0 c).arrAt_in 0 rfl _).trans
        ((Cert.KernelIdeal.Hand.A_eq m c 0).trans (Cert.KernelIdeal.Gen.V_main_arg0 m c)))
    · exact ((h c).1 1).trans (((Cert.KernelIdeal.Hand.dats m 0 c).arrAt_in 1 rfl _).trans
        ((Cert.KernelIdeal.Hand.A_eq m c 1).trans (Cert.KernelIdeal.Gen.V_main_arg1 m c)))
  · refine (θ_run (Cert.ReferenceIdeal.defs (F := Ideal)) _ _).mono (fun r h c => ⟨?_, (h c).2.1, (h c).2.2⟩)
      (Cert.ReferenceIdeal.Value.run (F := Ideal) m' ρ')
    refine (h c).1.trans ((Cert.ReferenceIdeal.Read.val_main_v25_eq _ _).trans ((Cert.ReferenceIdeal.RefValue.result_eq _ _).trans ?_))
    rw [(hagree c).1, (hagree c).2]

end Cert.Proof.Claims

end
-- ==== Proof.lean ====
/-
  The certificate of the nearest-neighbour distance kernel against its reference: the three frames, the (empty)
  idealization ledger, and the equality of the two results over the extended reals, from the modules under Proof/.
-/
import proofs.«101841_j19164144075465_1_alg».proof.Defs
import proofs.«101841_j19164144075465_1_alg».proof.Proof.Gen.Kernel
import proofs.«101841_j19164144075465_1_alg».proof.Proof.Gen.KernelIdeal
import proofs.«101841_j19164144075465_1_alg».proof.Proof.Gen.ReferenceIdeal
import proofs.«101841_j19164144075465_1_alg».proof.Proof.Gen.Pre_finite_inputs
import proofs.«101841_j19164144075465_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
